-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x92160 : Shape := ⟨2, ![4, 92160]⟩
abbrev S256x256x180 : Shape := ⟨3, ![256, 256, 180]⟩
abbrev S_ : Shape := ⟨0, ![]⟩

class Facts : Prop where
  bcast_S_S4x92160 : S_.BroadcastsInDim S4x92160 (![] : Fin 0 → Fin S4x92160.rank)
  reducesTo_S4x92160_S_d0_1 : S4x92160.ReducesTo [0, 1] S_
  h_S_ : 0 < S_.numel
  bcast_S_S256x256x180 : S_.BroadcastsInDim S256x256x180 (![] : Fin 0 → Fin S256x256x180.rank)
  reducesTo_S256x256x180_S_d0_1_2 : S256x256x180.ReducesTo [0, 1, 2] S_

variable [Facts]

def fn {F : FTy → Type} [FloatOps F] (main_arg0 : FVec F S4x92160 .f32) (main_arg1 : FVec F S256x256x180 .f32) : IVec S_ 1 :=
  let main_v0 : FVec F S4x92160 .f32 := Host.absf main_arg0
  let main_cst : FVec F S_ .f32 := constant S_ .f32 0x7F800000#32
  let main_v1 : FVec F S4x92160 .f32 := broadcastInDim S4x92160 ![] bcast_S_S4x92160 main_cst
  let main_v2 : IVec S4x92160 1 := cmpf .olt main_v0 main_v1
  let main_c : IVec S_ 1 := constantI S_ 1 1#1
  let main_v3 : IVec S_ 1 := (fun x v => Host.reduce IntOp.andi x v reducesTo_S4x92160_S_d0_1 h_S_) main_v2 main_c
  let main_v4 : FVec F S256x256x180 .f32 := Host.absf main_arg1
  let main_cst_0 : FVec F S_ .f32 := constant S_ .f32 0x7F800000#32
  let main_v5 : FVec F S256x256x180 .f32 := broadcastInDim S256x256x180 ![] bcast_S_S256x256x180 main_cst_0
  let main_v6 : IVec S256x256x180 1 := cmpf .olt main_v4 main_v5
  let main_c_1 : IVec S_ 1 := constantI S_ 1 1#1
  let main_v7 : IVec S_ 1 := (fun x v => Host.reduce IntOp.andi x v reducesTo_S256x256x180_S_d0_1_2 h_S_) main_v6 main_c_1
  let main_v8 : IVec S_ 1 := andi main_v3 main_v7
  main_v8
-- ==== Kernel.lean ====
abbrev S4x92160 : Shape := ⟨2, ![4, 92160]⟩
abbrev S256x256x180 : Shape := ⟨3, ![256, 256, 180]⟩
abbrev S11796480 : Shape := ⟨1, ![11796480]⟩
abbrev S_ : Shape := ⟨0, ![]⟩
abbrev S23592960 : Shape := ⟨1, ![23592960]⟩
abbrev S23592960x1 : Shape := ⟨2, ![23592960, 1]⟩
abbrev S1 : Shape := ⟨1, ![1]⟩
abbrev S1x1 : Shape := ⟨2, ![1, 1]⟩
abbrev S4x23592960 : Shape := ⟨2, ![4, 23592960]⟩
abbrev S4x11796480 : Shape := ⟨2, ![4, 11796480]⟩
abbrev S4x393216 : Shape := ⟨2, ![4, 393216]⟩
abbrev S393216 : Shape := ⟨1, ![393216]⟩
abbrev S1x393216 : Shape := ⟨2, ![1, 393216]⟩
abbrev S1x4x256x256x180 : Shape := ⟨5, ![1, 4, 256, 256, 180]⟩

abbrev nBuf : Space → Nat
  | .hbm => 42
  | .vmem => 8
  | .smem => 0
  | _ => 0

abbrev bufTy : (tb : Table) → Fin (tcTables nBuf tb) → BufTy
  | .hbm, ⟨0, _⟩ => ⟨S4x92160, .f32⟩
  | .hbm, ⟨1, _⟩ => ⟨S256x256x180, .f32⟩
  | .hbm, ⟨2, _⟩ => ⟨S11796480, .f32⟩
  | .hbm, ⟨3, _⟩ => ⟨S11796480, .f32⟩
  | .hbm, ⟨4, _⟩ => ⟨S11796480, .f32⟩
  | .hbm, ⟨5, _⟩ => ⟨S_, .f32⟩
  | .hbm, ⟨6, _⟩ => ⟨S11796480, .f32⟩
  | .hbm, ⟨7, _⟩ => ⟨S11796480, .i1⟩
  | .hbm, ⟨8, _⟩ => ⟨S_, .f32⟩
  | .hbm, ⟨9, _⟩ => ⟨S_, .f32⟩
  | .hbm, ⟨10, _⟩ => ⟨S11796480, .f32⟩
  | .hbm, ⟨11, _⟩ => ⟨S11796480, .f32⟩
  | .hbm, ⟨12, _⟩ => ⟨S11796480, .i32⟩
  | .hbm, ⟨13, _⟩ => ⟨S11796480, .i32⟩
  | .hbm, ⟨14, _⟩ => ⟨S23592960, .i32⟩
  | .hbm, ⟨15, _⟩ => ⟨S_, .i32⟩
  | .hbm, ⟨16, _⟩ => ⟨S23592960, .i32⟩
  | .hbm, ⟨17, _⟩ => ⟨S23592960, .i1⟩
  | .hbm, ⟨18, _⟩ => ⟨S_, .i32⟩
  | .hbm, ⟨19, _⟩ => ⟨S23592960, .i32⟩
  | .hbm, ⟨20, _⟩ => ⟨S23592960, .i32⟩
  | .hbm, ⟨21, _⟩ => ⟨S23592960, .i32⟩
  | .hbm, ⟨22, _⟩ => ⟨S23592960x1, .i32⟩
  | .hbm, ⟨23, _⟩ => ⟨S1, .i32⟩
  | .hbm, ⟨24, _⟩ => ⟨S_, .i32⟩
  | .hbm, ⟨25, _⟩ => ⟨S23592960x1, .i32⟩
  | .hbm, ⟨26, _⟩ => ⟨S23592960x1, .i1⟩
  | .hbm, ⟨27, _⟩ => ⟨S1x1, .i32⟩
  | .hbm, ⟨28, _⟩ => ⟨S23592960x1, .i32⟩
  | .hbm, ⟨29, _⟩ => ⟨S23592960x1, .i1⟩
  | .hbm, ⟨30, _⟩ => ⟨S23592960x1, .i1⟩
  | .hbm, ⟨31, _⟩ => ⟨S_, .i1⟩
  | .hbm, ⟨32, _⟩ => ⟨S23592960, .i1⟩
  | .hbm, ⟨33, _⟩ => ⟨S4x23592960, .f32⟩
  | .hbm, ⟨34, _⟩ => ⟨S4x23592960, .i1⟩
  | .hbm, ⟨35, _⟩ => ⟨S_, .f32⟩
  | .hbm, ⟨36, _⟩ => ⟨S4x23592960, .f32⟩
  | .hbm, ⟨37, _⟩ => ⟨S4x23592960, .f32⟩
  | .hbm, ⟨38, _⟩ => ⟨S4x11796480, .f32⟩
  | .hbm, ⟨39, _⟩ => ⟨S4x11796480, .f32⟩
  | .hbm, ⟨40, _⟩ => ⟨S4x11796480, .f32⟩
  | .hbm, ⟨41, _⟩ => ⟨S1x4x256x256x180, .f32⟩
  | .local _ .vmem, ⟨0, _⟩ => ⟨S4x393216, .f32⟩
  | .local _ .vmem, ⟨1, _⟩ => ⟨S4x393216, .f32⟩
  | .local _ .vmem, ⟨2, _⟩ => ⟨S4x393216, .f32⟩
  | .local _ .vmem, ⟨3, _⟩ => ⟨S4x393216, .f32⟩
  | .local _ .vmem, ⟨4, _⟩ => ⟨S393216, .f32⟩
  | .local _ .vmem, ⟨5, _⟩ => ⟨S393216, .f32⟩
  | .local _ .vmem, ⟨6, _⟩ => ⟨S4x393216, .f32⟩
  | .local _ .vmem, ⟨7, _⟩ => ⟨S4x393216, .f32⟩
  | _, _ => ⟨S4x92160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call1_c : Ref sig .tc := ⟨.hbm, 15, rfl⟩
abbrev main_call1_v0 : Ref sig .tc := ⟨.hbm, 16, rfl⟩
abbrev main_call1_v1 : Ref sig .tc := ⟨.hbm, 17, rfl⟩
abbrev main_call1_c_0 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_c_1 : Ref sig .tc := ⟨.hbm, 23, rfl⟩
abbrev main_call1_c_2 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_3 : Ref sig .tc := ⟨.hbm, 31, rfl⟩
abbrev main_call1_v12 : Ref sig .tc := ⟨.hbm, 32, rfl⟩
abbrev main_call1_v13 : Ref sig .tc := ⟨.hbm, 33, rfl⟩
abbrev main_call1_v14 : Ref sig .tc := ⟨.hbm, 34, rfl⟩
abbrev main_call1_cst : Ref sig .tc := ⟨.hbm, 35, rfl⟩
abbrev main_call1_v15 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x393216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x393216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S393216 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x393216 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256x256x180_S11796480 : S256x256x180.ShapeCasts S11796480
  bcast_S_S11796480 : S_.BroadcastsInDim S11796480 (![] : Fin 0 → Fin S11796480.rank)
  concatenates_S11796480_S11796480_S23592960_d0 : Shape.Concatenates [S11796480, S11796480] S23592960 0
  bcast_S_S23592960 : S_.BroadcastsInDim S23592960 (![] : Fin 0 → Fin S23592960.rank)
  bcast_S23592960_S23592960x1_0 : S23592960.BroadcastsInDim S23592960x1 (![0] : Fin 1 → Fin S23592960x1.rank)
  bcast_S_S23592960x1 : S_.BroadcastsInDim S23592960x1 (![] : Fin 0 → Fin S23592960x1.rank)
  bcast_S1_S1x1_1 : S1.BroadcastsInDim S1x1 (![1] : Fin 1 → Fin S1x1.rank)
  bcast_S1x1_S23592960x1_0_1 : S1x1.BroadcastsInDim S23592960x1 (![0, 1] : Fin 2 → Fin S23592960x1.rank)
  reducesTo_S23592960x1_S23592960_d1 : S23592960x1.ReducesTo [1] S23592960
  h_S_ : 0 < S_.numel
  bcast_S23592960_S4x23592960_1 : S23592960.BroadcastsInDim S4x23592960 (![1] : Fin 1 → Fin S4x23592960.rank)
  bcast_S_S4x23592960 : S_.BroadcastsInDim S4x23592960 (![] : Fin 0 → Fin S4x23592960.rank)
  slices_S4x23592960_S4x11796480_0_0 : S4x23592960.Slices ![0, 0] S4x11796480
  slices_S4x23592960_S4x11796480_0_11796480 : S4x23592960.Slices ![0, 11796480] S4x11796480
  inb_S393216_S393216_0 : ∀ a, (![0] : Fin 1 → Nat) a + S393216.size a ≤ S393216.size a
  h_S393216 : 0 < S393216.numel
  shapeCasts_S393216_S393216 : S393216.ShapeCasts S393216
  shapeCasts_S393216_S1x393216 : S393216.ShapeCasts S1x393216
  inb_S4x393216_S4x393216_0_0 : ∀ a, (![0, 0] : Fin 2 → Nat) a + S4x393216.size a ≤ S4x393216.size a
  h_S4x393216 : 0 < S4x393216.numel
  shapeCasts_S4x393216_S4x393216 : S4x393216.ShapeCasts S4x393216
  broadcasts_S1x393216_S4x393216 : S1x393216.Broadcasts S4x393216
  shapeCasts_S4x11796480_S1x4x256x256x180 : S4x11796480.ShapeCasts S1x4x256x256x180
  gather_S4x92160_S23592960x1_S4x23592960_0_1_n_n_1_1_41_wf : GatherDims.WF S4x92160 S23592960x1 S4x23592960 [0] [1] [] [1] [] 1 ![4, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x393216.size a ≤ S4x11796480.size a
  hwx0_0 : ∀ i : grid0.Coords, EltTy.bits .f32 = 32 ∨ (Rect.block (s := S4x11796480) S4x393216.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x393216.size a ≤ S4x11796480.size a
  hwx0_1 : ∀ i : grid0.Coords, EltTy.bits .f32 = 32 ∨ (Rect.block (s := S4x11796480) S4x393216.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S393216.size a ≤ S11796480.size a
  hwx0_2 : ∀ i : grid0.Coords, EltTy.bits .f32 = 32 ∨ (Rect.block (s := S11796480) S393216.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x393216.size a ≤ S4x11796480.size a
  hwx0_3 : ∀ i : grid0.Coords, EltTy.bits .f32 = 32 ∨ (Rect.block (s := S4x11796480) S4x393216.size (cc0_transform_3 i) (hinb0_3 i)).WholeWords (EltTy.packing .f32)

variable [Facts₀]

def gather_S4x92160_S23592960x1_S4x23592960_0_1_n_n_1_1_41 : GatherDims S4x92160 S23592960x1 S4x23592960 where
  offsetDims := [0]
  collapsedSliceDims := [1]
  operandBatchingDims := []
  startIndicesBatchingDims := []
  startIndexMap := [1]
  indexVectorDim := 1
  sliceSizes := ![4, 1]
  wf := gather_S4x92160_S23592960x1_S4x23592960_0_1_n_n_1_1_41_wf

abbrev win0_0 : Pipeline.Window sig grid0 :=
  Pipeline.Window.ofSpec (Memref.whole main_v10) S4x393216.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4x393216.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S393216.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4x393216.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x92160 : Shape := ⟨2, ![4, 92160]⟩
abbrev S256x256x180 : Shape := ⟨3, ![256, 256, 180]⟩
abbrev S1x4x92160 : Shape := ⟨3, ![1, 4, 92160]⟩
abbrev S_ : Shape := ⟨0, ![]⟩
abbrev S11796480 : Shape := ⟨1, ![11796480]⟩
abbrev S11796480x1 : Shape := ⟨2, ![11796480, 1]⟩
abbrev S1 : Shape := ⟨1, ![1]⟩
abbrev S1x1 : Shape := ⟨2, ![1, 1]⟩
abbrev S1x4x11796480 : Shape := ⟨3, ![1, 4, 11796480]⟩
abbrev S1x1x11796480 : Shape := ⟨3, ![1, 1, 11796480]⟩
abbrev S1x4x256x256x180 : Shape := ⟨5, ![1, 4, 256, 256, 180]⟩

abbrev nBuf : Space → Nat
  | .hbm => 75
  | .vmem => 0
  | .smem => 0
  | _ => 0

abbrev bufTy : (tb : Table) → Fin (tcTables nBuf tb) → BufTy
  | .hbm, ⟨0, _⟩ => ⟨S4x92160, .f32⟩
  | .hbm, ⟨1, _⟩ => ⟨S256x256x180, .f32⟩
  | .hbm, ⟨2, _⟩ => ⟨S1x4x92160, .f32⟩
  | .hbm, ⟨3, _⟩ => ⟨S256x256x180, .f32⟩
  | .hbm, ⟨4, _⟩ => ⟨S256x256x180, .f32⟩
  | .hbm, ⟨5, _⟩ => ⟨S256x256x180, .f32⟩
  | .hbm, ⟨6, _⟩ => ⟨S_, .f32⟩
  | .hbm, ⟨7, _⟩ => ⟨S256x256x180, .f32⟩
  | .hbm, ⟨8, _⟩ => ⟨S256x256x180, .i1⟩
  | .hbm, ⟨9, _⟩ => ⟨S_, .i32⟩
  | .hbm, ⟨10, _⟩ => ⟨S_, .f32⟩
  | .hbm, ⟨11, _⟩ => ⟨S256x256x180, .f32⟩
  | .hbm, ⟨12, _⟩ => ⟨S256x256x180, .f32⟩
  | .hbm, ⟨13, _⟩ => ⟨S256x256x180, .i32⟩
  | .hbm, ⟨14, _⟩ => ⟨S11796480, .i32⟩
  | .hbm, ⟨15, _⟩ => ⟨S256x256x180, .i32⟩
  | .hbm, ⟨16, _⟩ => ⟨S11796480, .i32⟩
  | .hbm, ⟨17, _⟩ => ⟨S11796480, .f32⟩
  | .hbm, ⟨18, _⟩ => ⟨S_, .i32⟩
  | .hbm, ⟨19, _⟩ => ⟨S11796480, .i32⟩
  | .hbm, ⟨20, _⟩ => ⟨S11796480, .i1⟩
  | .hbm, ⟨21, _⟩ => ⟨S_, .i32⟩
  | .hbm, ⟨22, _⟩ => ⟨S11796480, .i32⟩
  | .hbm, ⟨23, _⟩ => ⟨S11796480, .i32⟩
  | .hbm, ⟨24, _⟩ => ⟨S11796480, .i32⟩
  | .hbm, ⟨25, _⟩ => ⟨S11796480x1, .i32⟩
  | .hbm, ⟨26, _⟩ => ⟨S1, .i32⟩
  | .hbm, ⟨27, _⟩ => ⟨S_, .i32⟩
  | .hbm, ⟨28, _⟩ => ⟨S11796480x1, .i32⟩
  | .hbm, ⟨29, _⟩ => ⟨S11796480x1, .i1⟩
  | .hbm, ⟨30, _⟩ => ⟨S1x1, .i32⟩
  | .hbm, ⟨31, _⟩ => ⟨S11796480x1, .i32⟩
  | .hbm, ⟨32, _⟩ => ⟨S11796480x1, .i1⟩
  | .hbm, ⟨33, _⟩ => ⟨S11796480x1, .i1⟩
  | .hbm, ⟨34, _⟩ => ⟨S_, .i1⟩
  | .hbm, ⟨35, _⟩ => ⟨S11796480, .i1⟩
  | .hbm, ⟨36, _⟩ => ⟨S1x4x11796480, .f32⟩
  | .hbm, ⟨37, _⟩ => ⟨S1x4x11796480, .i1⟩
  | .hbm, ⟨38, _⟩ => ⟨S_, .f32⟩
  | .hbm, ⟨39, _⟩ => ⟨S1x4x11796480, .f32⟩
  | .hbm, ⟨40, _⟩ => ⟨S1x4x11796480, .f32⟩
  | .hbm, ⟨41, _⟩ => ⟨S_, .i32⟩
  | .hbm, ⟨42, _⟩ => ⟨S11796480, .i32⟩
  | .hbm, ⟨43, _⟩ => ⟨S11796480, .i1⟩
  | .hbm, ⟨44, _⟩ => ⟨S_, .i32⟩
  | .hbm, ⟨45, _⟩ => ⟨S11796480, .i32⟩
  | .hbm, ⟨46, _⟩ => ⟨S11796480, .i32⟩
  | .hbm, ⟨47, _⟩ => ⟨S11796480, .i32⟩
  | .hbm, ⟨48, _⟩ => ⟨S11796480x1, .i32⟩
  | .hbm, ⟨49, _⟩ => ⟨S1, .i32⟩
  | .hbm, ⟨50, _⟩ => ⟨S_, .i32⟩
  | .hbm, ⟨51, _⟩ => ⟨S11796480x1, .i32⟩
  | .hbm, ⟨52, _⟩ => ⟨S11796480x1, .i1⟩
  | .hbm, ⟨53, _⟩ => ⟨S1x1, .i32⟩
  | .hbm, ⟨54, _⟩ => ⟨S11796480x1, .i32⟩
  | .hbm, ⟨55, _⟩ => ⟨S11796480x1, .i1⟩
  | .hbm, ⟨56, _⟩ => ⟨S11796480x1, .i1⟩
  | .hbm, ⟨57, _⟩ => ⟨S_, .i1⟩
  | .hbm, ⟨58, _⟩ => ⟨S11796480, .i1⟩
  | .hbm, ⟨59, _⟩ => ⟨S1x4x11796480, .f32⟩
  | .hbm, ⟨60, _⟩ => ⟨S1x4x11796480, .i1⟩
  | .hbm, ⟨61, _⟩ => ⟨S_, .f32⟩
  | .hbm, ⟨62, _⟩ => ⟨S1x4x11796480, .f32⟩
  | .hbm, ⟨63, _⟩ => ⟨S1x4x11796480, .f32⟩
  | .hbm, ⟨64, _⟩ => ⟨S_, .f32⟩
  | .hbm, ⟨65, _⟩ => ⟨S11796480, .f32⟩
  | .hbm, ⟨66, _⟩ => ⟨S11796480, .f32⟩
  | .hbm, ⟨67, _⟩ => ⟨S1x1x11796480, .f32⟩
  | .hbm, ⟨68, _⟩ => ⟨S1x4x11796480, .f32⟩
  | .hbm, ⟨69, _⟩ => ⟨S1x4x11796480, .f32⟩
  | .hbm, ⟨70, _⟩ => ⟨S1x1x11796480, .f32⟩
  | .hbm, ⟨71, _⟩ => ⟨S1x4x11796480, .f32⟩
  | .hbm, ⟨72, _⟩ => ⟨S1x4x11796480, .f32⟩
  | .hbm, ⟨73, _⟩ => ⟨S1x4x11796480, .f32⟩
  | .hbm, ⟨74, _⟩ => ⟨S1x4x256x256x180, .f32⟩
  | _, _ => ⟨S4x92160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_v14 : Ref sig .tc := ⟨.hbm, 37, rfl⟩
abbrev main_call1_cst : Ref sig .tc := ⟨.hbm, 38, rfl⟩
abbrev main_call1_v15 : Ref sig .tc := ⟨.hbm, 39, rfl⟩
abbrev main_v12 : Ref sig .tc := ⟨.hbm, 40, rfl⟩
abbrev main_call2_c : Ref sig .tc := ⟨.hbm, 41, rfl⟩
abbrev main_call2_v0 : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_c_1 : Ref sig .tc := ⟨.hbm, 49, rfl⟩
abbrev main_call2_c_2 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_3 : Ref sig .tc := ⟨.hbm, 57, rfl⟩
abbrev main_call2_v12 : Ref sig .tc := ⟨.hbm, 58, rfl⟩
abbrev main_call2_v13 : Ref sig .tc := ⟨.hbm, 59, rfl⟩
abbrev main_call2_v14 : Ref sig .tc := ⟨.hbm, 60, rfl⟩
abbrev main_call2_cst : Ref sig .tc := ⟨.hbm, 61, rfl⟩
abbrev main_call2_v15 : Ref sig .tc := ⟨.hbm, 62, rfl⟩
abbrev main_v13 : Ref sig .tc := ⟨.hbm, 63, rfl⟩
abbrev main_cst_0 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩

abbrev nD : Nat := 1
abbrev τ : Topo := Topo.v7x

variable {F : FTy → Type} [FloatOps F]

class Facts₀ : Prop where
  shapeCasts_S4x92160_S1x4x92160 : S4x92160.ShapeCasts S1x4x92160
  bcast_S_S256x256x180 : S_.BroadcastsInDim S256x256x180 (![] : Fin 0 → Fin S256x256x180.rank)
  shapeCasts_S256x256x180_S11796480 : S256x256x180.ShapeCasts S11796480
  bcast_S_S11796480 : S_.BroadcastsInDim S11796480 (![] : Fin 0 → Fin S11796480.rank)
  bcast_S11796480_S11796480x1_0 : S11796480.BroadcastsInDim S11796480x1 (![0] : Fin 1 → Fin S11796480x1.rank)
  bcast_S_S11796480x1 : S_.BroadcastsInDim S11796480x1 (![] : Fin 0 → Fin S11796480x1.rank)
  bcast_S1_S1x1_1 : S1.BroadcastsInDim S1x1 (![1] : Fin 1 → Fin S1x1.rank)
  bcast_S1x1_S11796480x1_0_1 : S1x1.BroadcastsInDim S11796480x1 (![0, 1] : Fin 2 → Fin S11796480x1.rank)
  reducesTo_S11796480x1_S11796480_d1 : S11796480x1.ReducesTo [1] S11796480
  h_S_ : 0 < S_.numel
  bcast_S11796480_S1x4x11796480_2 : S11796480.BroadcastsInDim S1x4x11796480 (![2] : Fin 1 → Fin S1x4x11796480.rank)
  bcast_S_S1x4x11796480 : S_.BroadcastsInDim S1x4x11796480 (![] : Fin 0 → Fin S1x4x11796480.rank)
  bcast_S11796480_S1x1x11796480_2 : S11796480.BroadcastsInDim S1x1x11796480 (![2] : Fin 1 → Fin S1x1x11796480.rank)
  bcast_S1x1x11796480_S1x4x11796480_0_1_2 : S1x1x11796480.BroadcastsInDim S1x4x11796480 (![0, 1, 2] : Fin 3 → Fin S1x4x11796480.rank)
  shapeCasts_S1x4x11796480_S1x4x256x256x180 : S1x4x11796480.ShapeCasts S1x4x256x256x180
  gather_S1x4x92160_S11796480x1_S1x4x11796480_01_2_n_n_2_1_141_wf : GatherDims.WF S1x4x92160 S11796480x1 S1x4x11796480 [0, 1] [2] [] [2] [] 1 ![1, 4, 1]

variable [Facts₀]

def gather_S1x4x92160_S11796480x1_S1x4x11796480_01_2_n_n_2_1_141 : GatherDims S1x4x92160 S11796480x1 S1x4x11796480 where
  offsetDims := [0, 1]
  collapsedSliceDims := [2]
  operandBatchingDims := []
  startIndicesBatchingDims := []
  startIndexMap := [2]
  indexVectorDim := 1
  sliceSizes := ![1, 4, 1]
  wf := gather_S1x4x92160_S11796480x1_S1x4x11796480_01_2_n_n_2_1_141_wf

class Facts : Prop extends Facts₀ where

variable [Facts]
-- ==== Proof.Spec.lean ====
/-
  The function both programs compute, index by index, on the extended reals.

  A table x of 4 rows and 92160 columns is sampled at 11796480 fractional positions v. For a position v the
  two neighbouring columns are floor v and ceil v (the latter replaced by 92159 where it equals 92160), each
  converted to a 32-bit word j and looked up the way jnp.take does: a negative word has 92160 added, a word
  outside [0, 92159] after that yields the fill value, any other word reads its column. The result at row c
  and position q is  low * (1 - w) + high * w  with w = v - floor v the fractional part.
  Nothing here is evaluated: the literals stay words, and the two sides of the certificate meet at these terms.
-/
import Idealize.ShloMosaic.PureOps.Ideal
import Idealize.ShloMosaic.Lib.ValueIdx

noncomputable section

namespace Cert.Spec

open Idealize.ShloMosaic Idealize.ShloMosaic.ValueIdx

/-- The table: 4 rows, 92160 columns. -/
abbrev SX : Shape := ⟨2, ![4, 92160]⟩
/-- The positions, flat. -/
abbrev SQ : Shape := ⟨1, ![11796480]⟩
/-- One value per row and position. -/
abbrev SK : Shape := ⟨2, ![4, 11796480]⟩

/-- The fractional part of a position: v - floor v. -/
def frac (v : Ideal .f32) : Ideal .f32 := v - FloatOps.floor v

/-- The literal 1.0, kept as its word. -/
def one : Ideal .f32 := Ideal.ofBits .f32 0x3F800000#32

/-- The fill value of an out-of-range lookup, kept as its word. -/
def fill : Ideal .f32 := Ideal.ofBits .f32 0x7FC00000#32

/-- Linear interpolation, at row c and position q, between two arrays of neighbours by the fractional part
    of the position. -/
def lerpAt (L H : FVec Ideal SK .f32) (I : FVec Ideal SQ .f32) (c : Fin 4) (q : Fin 11796480) : Ideal .f32 :=
  L (ix2 c q) * (one - frac (I (ix1 q))) + H (ix2 c q) * frac (I (ix1 q))

/-- The interpolation as an array. -/
def lerp (L H : FVec Ideal SK .f32) (I : FVec Ideal SQ .f32) : FVec Ideal SK .f32 :=
  fun i => lerpAt L H I ⟨(i 0).val, idx2_lt0 i⟩ ⟨(i 1).val, idx2_lt1 i⟩

theorem lerp_apply (L H : FVec Ideal SK .f32) (I : FVec Ideal SQ .f32) (c : Fin 4) (q : Fin 11796480) :
    lerp L H I (ix2 c q) = L (ix2 c q) * (one - frac (I (ix1 q))) + H (ix2 c q) * frac (I (ix1 q)) := rfl

/-- A negative column word wraps once: 92160 is added to it. -/
def wrapW (j : BitVec 32) : BitVec 32 := Scalar.select (IntOp.cmpi .slt j 0#32) (IntOp.addi j 92160#32) j

/-- Whether a column word lies in [0, 92159], as the lookup's mask computes it: the two comparisons joined,
    then joined with the reduction's initial value. -/
def okW (j : BitVec 32) : BitVec 1 :=
  IntOp.andi (IntOp.andi (IntOp.cmpi .sge j 0#32) (IntOp.cmpi .sle j 92159#32)) 1#1

/-- The column a word reads: the word as a signed integer, clamped into [0, 92159]. -/
def colOf (j : BitVec 32) : Fin 92160 := ⟨min j.toInt.toNat (92160 - 1), by omega⟩

/-- One lookup: row c of the table at the column word j. -/
def takeAt (x : FVec Ideal SX .f32) (c : Fin 4) (j : BitVec 32) : Ideal .f32 :=
  Scalar.select (okW (wrapW j)) (x (ix2 c (colOf (wrapW j)))) fill

/-- The lower neighbour's column word: floor v converted to a 32-bit integer. -/
def loW (v : Ideal .f32) : BitVec 32 := FloatOps.fptosi 32 (FloatOps.hostUnary .floor v)

/-- The upper neighbour before conversion: ceil v, or the literal 92159.0 where ceil v equals the literal
    92160.0. -/
def hiF (v : Ideal .f32) : Ideal .f32 :=
  Scalar.select (FloatOps.cmpf .oeq (FloatOps.hostUnary .ceil v) (Ideal.ofBits .f32 0x47B40000#32))
    (Ideal.ofBits .f32 0x47B3FF80#32) (FloatOps.hostUnary .ceil v)

/-- The upper neighbour's column word. -/
def hiW (v : Ideal .f32) : BitVec 32 := FloatOps.fptosi 32 (hiF v)

/-- The lower neighbours, as an array. -/
def lowArr (x : FVec Ideal SX .f32) (I : FVec Ideal SQ .f32) : FVec Ideal SK .f32 :=
  fun i => takeAt x ⟨(i 0).val, idx2_lt0 i⟩ (loW (I (ix1 ⟨(i 1).val, idx2_lt1 i⟩)))

/-- The upper neighbours, as an array. -/
def highArr (x : FVec Ideal SX .f32) (I : FVec Ideal SQ .f32) : FVec Ideal SK .f32 :=
  fun i => takeAt x ⟨(i 0).val, idx2_lt0 i⟩ (hiW (I (ix1 ⟨(i 1).val, idx2_lt1 i⟩)))

theorem lowArr_apply (x : FVec Ideal SX .f32) (I : FVec Ideal SQ .f32) (c : Fin 4) (q : Fin 11796480) :
    lowArr x I (ix2 c q) = takeAt x c (loW (I (ix1 q))) := rfl

theorem highArr_apply (x : FVec Ideal SX .f32) (I : FVec Ideal SQ .f32) (c : Fin 4) (q : Fin 11796480) :
    highArr x I (ix2 c q) = takeAt x c (hiW (I (ix1 q))) := rfl

/-- THE RESULT, before its last reshape: at row c and position q the interpolation of the two lookups. -/
def blend (x : FVec Ideal SX .f32) (I : FVec Ideal SQ .f32) : FVec Ideal SK .f32 :=
  lerp (lowArr x I) (highArr x I) I

theorem blend_apply (x : FVec Ideal SX .f32) (I : FVec Ideal SQ .f32) (c : Fin 4) (q : Fin 11796480) :
    blend x I (ix2 c q)
      = takeAt x c (loW (I (ix1 q))) * (one - frac (I (ix1 q))) + takeAt x c (hiW (I (ix1 q))) * frac (I (ix1 q)) := rfl

end Cert.Spec

end
-- ==== Proof.KBlock.lean ====
/-
  One entry of what the blending body stores.

  The body reads a block of 393216 positions and the two blocks of neighbours, 4 rows each, over the same
  positions. It takes the fractional part w = v - floor v of every position v, lays the row of weights 1 - w and
  the row of weights w over the 4 rows, and stores  low * (1 - w) + high * w.  Read at row c and column y of the
  block this is the interpolation of the two neighbours at (c, y) by the fractional part of position y:
  every operation of the body is pointwise or a re-laying of a row, so the entry is found by pushing the index
  through the operations one by one.
-/
import proofs.«421777_j43198781063627_3_alg».proof.Proof.Spec
import proofs.«421777_j43198781063627_3_alg».proof.Proof.Gen.KernelIdeal.Skeleton
import Idealize.ShloMosaic.Lib.ValueIdx
import Idealize.ShloMosaic.Lib.ValueLayout

noncomputable section

namespace Cert.KernelIdeal.KBlock

open Idealize.ShloMosaic Idealize.ShloMosaic.ValueIdx
open Cert.KernelIdeal Cert.KernelIdeal.Gen

/-- The body's literal 1.0 is the specification's: the same word, read on the extended reals. -/
theorem one_word : (Scalar.ofBits .f32 0x3F800000#32 : Ideal .f32) = Cert.Spec.one := rfl

/-- The row of fractional parts, laid out as one row over the block's columns: at column y it is the
    fractional part of position y. -/
theorem frac_row_apply (v0 : Vec Ideal S393216 .f32) (u : Fin 1) (y : Fin 393216) :
    shapeCast S1x393216 (subf v0 (floor v0)) shapeCasts_S393216_S1x393216 (ix2 u y)
      = Cert.Spec.frac (v0 (ix1 y)) :=
  shapeCast_a_1a_apply _ shapeCasts_S393216_S1x393216 u y

/-- THE STORED ENTRY: at row c and column y of the block, the lower neighbour weighted by one minus the
    fractional part of position y plus the upper neighbour weighted by that fractional part. -/
theorem pay_apply (v0 : Vec Ideal S393216 .f32) (v5 v7 : Vec Ideal S4x393216 .f32) (c : Fin 4) (y : Fin 393216) :
    k0_pay1 v0 v5 v7 (ix2 c y)
      = v5 (ix2 c y) * (Cert.Spec.one - Cert.Spec.frac (v0 (ix1 y)))
        + v7 (ix2 c y) * Cert.Spec.frac (v0 (ix1 y)) := by
  unfold k0_pay1
  rw [addf_apply, mulf_apply, mulf_apply, shapeCast_self, shapeCast_self, shapeCast_self,
    broadcastTo_1b_ab_apply _ broadcasts_S1x393216_S4x393216 c y,
    broadcastTo_1b_ab_apply _ broadcasts_S1x393216_S4x393216 c y,
    subf_apply, broadcast_apply, frac_row_apply]
  rfl

end Cert.KernelIdeal.KBlock

end
-- ==== Proof.KFinal.lean ====
/-
  What the blending call leaves in its output array.

  The call runs over 30 grid points. At point t every window holds the block of columns
  [393216 * t, 393216 * (t + 1)): the two arrays of neighbours and the output with all 4 rows, the positions
  as one row. So entry (r, y) of a block at point t is entry (r, 393216 * t + y) of its array, the body's stored
  entry there is the interpolation of the two neighbours at that column by the fractional part of that
  position, and what point t writes back is block t of ONE function of the three arrays: the interpolation
  taken entry by entry. The 30 blocks tile the 11796480 columns (column q lies in block q / 393216), so
  the output array ends as that function.
-/
import proofs.«421777_j43198781063627_3_alg».proof.Proof.Spec
import proofs.«421777_j43198781063627_3_alg».proof.Proof.KBlock
import proofs.«421777_j43198781063627_3_alg».proof.Proof.Gen.KernelIdeal.Frame
import Idealize.ShloMosaic.Lib.Pipeline.Value
import Idealize.ShloMosaic.Lib.ValueIdx

noncomputable section

namespace Cert.KernelIdeal.KFinal

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The array of lower neighbours as the call finds it: 4 rows, one column per position. -/
abbrev lowA (c : Dev nD) : FVec Ideal S4x11796480 .f32 := Gen.V m c main_v10
/-- The array of upper neighbours as the call finds it. -/
abbrev highA (c : Dev nD) : FVec Ideal S4x11796480 .f32 := Gen.V m c main_v11
/-- The positions as the call finds them, flat. -/
abbrev posA (c : Dev nD) : FVec Ideal S11796480 .f32 := Gen.V m c main_v0

/-- The interpolation of the three arrays, entry by entry: what the output array is claimed to end as. -/
abbrev goal (c : Dev nD) : FVec Ideal S4x11796480 .f32 := Cert.Spec.lerp (lowA m c) (highA m c) (posA m c)

/-- The zero offset of a one-axis load or store, spelt as a constant function. -/
theorem hz1 : (![0] : Fin 1 → Nat) = fun _ => 0 := funext fun a => by fin_cases a <;> rfl
/-- The zero offsets of a two-axis load or store, spelt as a constant function. -/
theorem hz2 : (![0, 0] : Fin 2 → Nat) = fun _ => 0 := funext fun a => by fin_cases a <;> rfl

/-- The index maps over the 30 grid points: every two-row window sits at block (0, t), the row of positions at
    block t. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 1) = t.val
    ∧ win0_3.index t (0 : Fin 2) = 0 ∧ win0_3.index t (1 : Fin 2) = t.val :=
  (by decide +kernel : ∀ t : Fin grid0.N, _)

/-- Where an entry of a block of lower neighbours sits in its array: row r stays, column y of block t is
    column 393216 t + y (a block's coordinate is its block index times the block's extent plus the
    coordinate inside the block). -/
theorem emb0 (t : Fin cfg0.N) (r : Fin 4) (y : Fin 393216) (h : t.val * 393216 + y.val < 11796480) :
    ((cfg0.win 0).blk t).view.emb (ix2 r y) = (ix2 r ⟨t.val * 393216 + y.val, h⟩ : S4x11796480.Idx) := by
  obtain ⟨e0, e1, -⟩ := idx_facts t
  funext a
  apply Fin.ext
  match a with
  | ⟨0, _⟩ => show win0_0.index t (0 : Fin 2) * 4 + 1 * r.val = r.val; rw [e0]; omega
  | ⟨1, _⟩ => show win0_0.index t (1 : Fin 2) * 393216 + 1 * y.val = t.val * 393216 + y.val; rw [e1]; omega

/-- The same for a block of upper neighbours. -/
theorem emb1 (t : Fin cfg0.N) (r : Fin 4) (y : Fin 393216) (h : t.val * 393216 + y.val < 11796480) :
    ((cfg0.win 1).blk t).view.emb (ix2 r y) = (ix2 r ⟨t.val * 393216 + y.val, h⟩ : S4x11796480.Idx) := by
  obtain ⟨-, -, e0, e1, -⟩ := idx_facts t
  funext a
  apply Fin.ext
  match a with
  | ⟨0, _⟩ => show win0_1.index t (0 : Fin 2) * 4 + 1 * r.val = r.val; rw [e0]; omega
  | ⟨1, _⟩ => show win0_1.index t (1 : Fin 2) * 393216 + 1 * y.val = t.val * 393216 + y.val; rw [e1]; omega

/-- Position y of block t of the positions is position 393216 t + y. -/
theorem emb2 (t : Fin cfg0.N) (y : Fin 393216) (h : t.val * 393216 + y.val < 11796480) :
    ((cfg0.win 2).blk t).view.emb (ix1 y) = (ix1 ⟨t.val * 393216 + y.val, h⟩ : S11796480.Idx) := by
  obtain ⟨-, -, -, -, e0, -⟩ := idx_facts t
  funext a
  apply Fin.ext
  match a with
  | ⟨0, _⟩ => show win0_2.index t (0 : Fin 1) * 393216 + 1 * y.val = t.val * 393216 + y.val; rw [e0]; omega

/-- And an entry of an output block sits in the output array where the neighbours' entries sit in theirs. -/
theorem emb3 (t : Fin cfg0.N) (r : Fin 4) (y : Fin 393216) (h : t.val * 393216 + y.val < 11796480) :
    ((cfg0.win 3).blk t).view.emb (ix2 r y) = (ix2 r ⟨t.val * 393216 + y.val, h⟩ : S4x11796480.Idx) := by
  obtain ⟨-, -, -, -, -, e0, e1⟩ := idx_facts t
  funext a
  apply Fin.ext
  match a with
  | ⟨0, _⟩ => show win0_3.index t (0 : Fin 2) * 4 + 1 * r.val = r.val; rw [e0]; omega
  | ⟨1, _⟩ => show win0_3.index t (1 : Fin 2) * 393216 + 1 * y.val = t.val * 393216 + y.val; rw [e1]; omega

/-- A column of block t is a column of the array: 30 blocks of 393216 columns. -/
theorem col_lt (t : Fin cfg0.N) (y : Fin 393216) : t.val * 393216 + y.val < 11796480 := by
  have ht : t.val < 30 := lt_of_lt_of_eq t.isLt N_0
  have hy := y.isLt
  omega

/-! ## Blocks of arbitrary arrays

The three arrays the call reads are long terms over the operations that made them; nothing below looks inside
them, so the block reads and the body's result are stated over arbitrary arrays of the three shapes. -/

/-- Entry (r, y) of block t of a two-row-window's array A is A at (r, 393216 t + y): window 0. -/
theorem read0 (A : FVec Ideal S4x11796480 .f32) (t : Fin cfg0.N) (r : Fin 4) (y : Fin 393216) :
    (((cfg0.win 0).blk t).view.read (Elt Ideal) A : Vec Ideal S4x393216 .f32) (ix2 r y)
      = A (ix2 r ⟨t.val * 393216 + y.val, col_lt t y⟩) := by
  show A (((cfg0.win 0).blk t).view.emb (ix2 r y)) = A (ix2 r ⟨t.val * 393216 + y.val, col_lt t y⟩)
  exact congrArg A (emb0 t r y (col_lt t y))

/-- The same through window 1. -/
theorem read1 (A : FVec Ideal S4x11796480 .f32) (t : Fin cfg0.N) (r : Fin 4) (y : Fin 393216) :
    (((cfg0.win 1).blk t).view.read (Elt Ideal) A : Vec Ideal S4x393216 .f32) (ix2 r y)
      = A (ix2 r ⟨t.val * 393216 + y.val, col_lt t y⟩) := by
  show A (((cfg0.win 1).blk t).view.emb (ix2 r y)) = A (ix2 r ⟨t.val * 393216 + y.val, col_lt t y⟩)
  exact congrArg A (emb1 t r y (col_lt t y))

/-- Entry y of block t of the flat window's array A is A at 393216 t + y. -/
theorem read2 (A : FVec Ideal S11796480 .f32) (t : Fin cfg0.N) (y : Fin 393216) :
    (((cfg0.win 2).blk t).view.read (Elt Ideal) A : Vec Ideal S393216 .f32) (ix1 y)
      = A (ix1 ⟨t.val * 393216 + y.val, col_lt t y⟩) := by
  show A (((cfg0.win 2).blk t).view.emb (ix1 y)) = A (ix1 ⟨t.val * 393216 + y.val, col_lt t y⟩)
  exact congrArg A (emb2 t y (col_lt t y))

/-- Block t of an array G of the output's shape, entry (r, y), is G at (r, 393216 t + y). -/
theorem read3 (G : FVec Ideal S4x11796480 .f32) (t : Fin cfg0.N) (r : Fin 4) (y : Fin 393216) :
    (((cfg0.win 3).blk t).view.read (Elt Ideal) G : Vec Ideal S4x393216 .f32) (ix2 r y)
      = G (ix2 r ⟨t.val * 393216 + y.val, col_lt t y⟩) := by
  show G (((cfg0.win 3).blk t).view.emb (ix2 r y)) = G (ix2 r ⟨t.val * 393216 + y.val, col_lt t y⟩)
  exact congrArg G (emb3 t r y (col_lt t y))

/-- WHAT THE BODY LEAVES at point t from blocks t of three arrays, cut to what the write-back moves, is block t of
    the interpolation of the three arrays: its one store covers the staging buffer, and the stored entry (r, y)
    is the interpolation at (r, 393216 t + y), where the three blocks' entries and the output block's entry sit. -/
theorem block_eq (A0 A1 : FVec Ideal S4x11796480 .f32) (A2 : FVec Ideal S11796480 .f32) (t : Fin cfg0.N) :
    (cfg0.win 3).cut (grid0.coords t)
        (out0_3 (((cfg0.win 0).blk t).view.read (Elt Ideal) A0) (((cfg0.win 1).blk t).view.read (Elt Ideal) A1)
          (((cfg0.win 2).blk t).view.read (Elt Ideal) A2))
      = ((cfg0.win 3).blk t).view.read (Elt Ideal) (Cert.Spec.lerp A0 A1 A2) := by
  unfold out0_3
  rw [View.canon_unit_zero hz2]
  simp only [View.ld_unit_zero (S := S4x393216) hz2, View.ld_unit_zero (S := S393216) hz1]
  funext j
  obtain ⟨r, y, rfl⟩ : ∃ (r : Fin 4) (y : Fin 393216), j = ix2 r y := ⟨j 0, j 1, eq_ix2 j⟩
  show k0_pay1 (((cfg0.win 2).blk t).view.read (Elt Ideal) A2 : Vec Ideal S393216 .f32)
        (((cfg0.win 0).blk t).view.read (Elt Ideal) A0 : Vec Ideal S4x393216 .f32)
        (((cfg0.win 1).blk t).view.read (Elt Ideal) A1 : Vec Ideal S4x393216 .f32) (ix2 r y)
      = (((cfg0.win 3).blk t).view.read (Elt Ideal) (Cert.Spec.lerp A0 A1 A2) : Vec Ideal S4x393216 .f32) (ix2 r y)
  rw [KBlock.pay_apply, read0, read1, read2, read3, Cert.Spec.lerp_apply]

/-! ## The call's own arrays -/

/-- WHAT POINT t WRITES BACK is block t of the interpolation of the three arrays as the call finds them: each
    input window's block is that block of its array, and the body's result on them was found above. -/
theorem flushed_eq (c : Dev nD) (t : Fin cfg0.N) :
    (dats m 0 c).flushed 3 t = ((cfg0.win 3).blk t).view.read (Elt Ideal) (goal m c) := by
  show (cfg0.win 3).cut (grid0.coords t) ((dats m 0 c).after 3 t) = _
  rw [after0_3]
  exact block_eq (lowA m c) (highA m c) (posA m c) t

/-- An entry of the output array lies in point t's block iff, on each axis, its coordinate lies in the block's
    range there. -/
theorem mem_blk (t : Fin cfg0.N) (i : S4x11796480.Idx) :
    i ∈ ((cfg0.win 3).blk t).view.set
      ↔ ∀ a : Fin 2, win0_3.index t a * S4x393216.size a ≤ (i a).val
          ∧ (i a).val < win0_3.index t a * S4x393216.size a + S4x393216.size a := by
  show i ∈ ((View.whole main_v12).slice (win0_3.rect t)).set ↔ _
  rw [View.set_slice_whole, Rect.mem_set_unit]
  exact Iff.rfl

/-- THE BLOCKS TILE THE ARRAY: entry (r, q) lies in the block of point q / 393216, which is written back. -/
theorem cover (i : S4x11796480.Idx) :
    ∃ t : Fin cfg0.N, (cfg0.win 3).flush t = true ∧ i ∈ ((cfg0.win 3).blk t).view.set := by
  have hi0 : (i 0).val < 4 := idx2_lt0 i
  have hi1 : (i 1).val < 11796480 := idx2_lt1 i
  have hN : cfg0.N = 30 := N_0
  have ht : (i 1).val / 393216 < cfg0.N := by rw [hN]; omega
  obtain ⟨-, -, -, -, -, e0, e1⟩ := idx_facts ⟨(i 1).val / 393216, ht⟩
  refine ⟨⟨(i 1).val / 393216, ht⟩, flush0_3 _, ?_⟩
  rw [mem_blk]
  intro a
  match a with
  | ⟨0, _⟩ =>
    show win0_3.index ⟨(i 1).val / 393216, ht⟩ (0 : Fin 2) * 4 ≤ (i 0).val
      ∧ (i 0).val < win0_3.index ⟨(i 1).val / 393216, ht⟩ (0 : Fin 2) * 4 + 4
    rw [e0]; omega
  | ⟨1, _⟩ =>
    show win0_3.index ⟨(i 1).val / 393216, ht⟩ (1 : Fin 2) * 393216 ≤ (i 1).val
      ∧ (i 1).val < win0_3.index ⟨(i 1).val / 393216, ht⟩ (1 : Fin 2) * 393216 + 393216
    rw [e1]
    show (i 1).val / 393216 * 393216 ≤ (i 1).val ∧ (i 1).val < (i 1).val / 393216 * 393216 + 393216
    omega

/-- THE OUTPUT ARRAY AFTER THE CALL is the interpolation, entry by entry, of the two arrays of neighbours by the
    fractional parts of the positions, all three as the call finds them. -/
theorem final (c : Dev nD) :
    (Gen.dats (F := Ideal) m 0 c).arrAt 3 cfg0.N
      = Cert.Spec.lerp (Gen.V m c main_v10) (Gen.V m c main_v11) (Gen.V m c main_v0) :=
  (dats m 0 c).arrAt_eq_of_cover 3 (goal m c) (fun t _ => flushed_eq m c t) cover

end Cert.KernelIdeal.KFinal

end
-- ==== Proof.LibTake.lean ====
/-
  The index arithmetic of a one-axis table lookup (jnp.take along one axis, with its default out-of-range
  mode), read at an index.

  For n column words j the lookup first wraps the negative ones (a word below zero has the axis length added),
  lays the wrapped words out as an [n, 1] table of one-component start indices, and computes a mask: a word is
  in range when it is at least a lower word and at most an upper word, the two comparisons joined by and, and
  that [n, 1] array of bits is reduced by and over its unit axis from the initial value true. Each of these is
  read here at an index, for any n and any three words: the wrapped word at q; the table's entry (q, 0); the
  mask's bit at q, which is the and of the two comparisons at (q, 0) and the initial bit. Two readings of a
  mask or a word broadcast along the rows of a two-axis or three-axis result go with them.
-/
import Idealize.ShloMosaic.PureOps.Ideal
import Idealize.ShloMosaic.PureOps.Reduce
import Idealize.ShloMosaic.Lib.ValueIdx
import Idealize.ShloMosaic.Lib.Pipeline.Value
import Idealize.ShloMosaic.Lib.IdealHost

noncomputable section

namespace Cert.LibTake

open Idealize.ShloMosaic Idealize.ShloMosaic.ValueIdx

variable {n : Nat}

/-- A word below zero has the axis length `len` added; any other word is kept. -/
def wrapWord (len j : BitVec 32) : BitVec 32 := Scalar.select (IntOp.cmpi .slt j 0#32) (IntOp.addi j len) j

/-- The range test of a word against a lower and an upper word, joined with the reduction's initial bit. -/
def okWord (lo top j : BitVec 32) : BitVec 1 :=
  IntOp.andi (IntOp.andi (IntOp.cmpi .sge j lo) (IntOp.cmpi .sle j top)) 1#1

/-- The wrap of the negative words, read at an index: the wrap of the word there. -/
theorem wrap_apply (len : BitVec 32) (hb : (⟨0, ![]⟩ : Shape).BroadcastsInDim ⟨1, ![n]⟩ ![]) (j : IVec ⟨1, ![n]⟩ 32)
    (i : (⟨1, ![n]⟩ : Shape).Idx) :
    select (cmpi .slt j (broadcastInDim ⟨1, ![n]⟩ ![] hb (constantI ⟨0, ![]⟩ 32 0#32)))
      (addi j (broadcastInDim ⟨1, ![n]⟩ ![] hb (constantI ⟨0, ![]⟩ 32 len))) j i = wrapWord len (j i) := by
  show Scalar.select (IntOp.cmpi .slt (j i) (broadcastInDim ⟨1, ![n]⟩ ![] hb (constantI ⟨0, ![]⟩ 32 0#32) i))
      (IntOp.addi (j i) (broadcastInDim ⟨1, ![n]⟩ ![] hb (constantI ⟨0, ![]⟩ 32 len) i)) (j i) = _
  rw [broadcastInDim_scalar_apply, broadcastInDim_scalar_apply]
  rfl

/-- The n words laid out as an [n, 1] table read, at (q, 0), word q. -/
theorem column_apply {α : Type} (h : (⟨1, ![n]⟩ : Shape).BroadcastsInDim ⟨2, ![n, 1]⟩ ![0]) (v : (⟨1, ![n]⟩ : Shape).Idx → α)
    (q : Fin n) : broadcastInDim ⟨2, ![n, 1]⟩ ![0] h v (ix2 q (0 : Fin 1)) = v (ix1 q) := by
  refine broadcastInDim_apply _ h v _ (ix1 q) fun a => ?_
  match a with
  | ⟨0, _⟩ =>
    show q.val = if n = 1 then 0 else q.val
    split
    · have := q.isLt; omega
    · rfl

/-- The source index over result index q of an [n, 1] array reduced over its unit axis is (q, 0). -/
theorem lift_unit (hR : (⟨2, ![n, 1]⟩ : Shape).Reduces [1] ⟨1, ![n]⟩) (q : Fin n) (k : Fin ((⟨2, ![n, 1]⟩ : Shape).size 1)) :
    hR.lift (ix1 q) k = ix2 q (0 : Fin 1) := by
  funext c
  refine Fin.ext ?_
  rw [hR.lift_val]
  unfold Shape.Reduces.liftVal
  have e1 : ((1 : Fin (⟨2, ![n, 1]⟩ : Shape).rank) : ℕ) = 1 := rfl
  have hk : k.val = 0 := by have : k.val < 1 := k.isLt; omega
  match c with
  | ⟨0, h0⟩ =>
    have hc : ¬ ((⟨0, h0⟩ : Fin (⟨2, ![n, 1]⟩ : Shape).rank).val = (1 : Fin (⟨2, ![n, 1]⟩ : Shape).rank).val) := by
      rw [e1]; exact Nat.zero_ne_one
    have hl : (⟨0, h0⟩ : Fin (⟨2, ![n, 1]⟩ : Shape).rank).val < (1 : Fin (⟨2, ![n, 1]⟩ : Shape).rank).val := by
      rw [e1]; exact Nat.zero_lt_one
    rw [dif_neg hc, dif_pos hl]
  | ⟨1, h1⟩ =>
    have hc : (⟨1, h1⟩ : Fin (⟨2, ![n, 1]⟩ : Shape).rank).val = (1 : Fin (⟨2, ![n, 1]⟩ : Shape).rank).val := rfl
    rw [dif_pos hc]; exact hk

/-- A fold by and over the one-element index type is the and of that element's bit and the initial bit. -/
theorem fold_and_fin_one (f : Fin 1 → BitVec 1) (b : BitVec 1) :
    (Finset.univ : Finset (Fin 1)).fold IntOp.andi b f = IntOp.andi (f 0) b := by
  rw [Finset.univ_unique, Finset.fold_singleton]
  rfl

/-- THE RANGE MASK READ AT q: the and of the two comparisons of the table's entry (q, 0), joined with the initial
    bit. -/
theorem mask_apply (lo top : BitVec 32) (hb6 : (⟨0, ![]⟩ : Shape).BroadcastsInDim ⟨2, ![n, 1]⟩ ![])
    (hb8 : (⟨1, ![1]⟩ : Shape).BroadcastsInDim ⟨2, ![1, 1]⟩ ![1])
    (hb9 : (⟨2, ![1, 1]⟩ : Shape).BroadcastsInDim ⟨2, ![n, 1]⟩ ![0, 1])
    (hred : (⟨2, ![n, 1]⟩ : Shape).ReducesTo [1] ⟨1, ![n]⟩) (hS : 0 < (⟨0, ![]⟩ : Shape).numel)
    (J : IVec ⟨2, ![n, 1]⟩ 32) (q : Fin n) :
    Host.reduce IntOp.andi
        (andi (cmpi .sge J (broadcastInDim ⟨2, ![n, 1]⟩ ![] hb6 (constantI ⟨0, ![]⟩ 32 lo)))
          (cmpi .sle J (broadcastInDim ⟨2, ![n, 1]⟩ ![0, 1] hb9
            (broadcastInDim ⟨2, ![1, 1]⟩ ![1] hb8 (constantI ⟨1, ![1]⟩ 32 top)))))
        (constantI ⟨0, ![]⟩ 1 1#1) hred hS (ix1 q)
      = okWord lo top (J (ix2 q (0 : Fin 1))) := by
  have hR : (⟨2, ![n, 1]⟩ : Shape).Reduces [1] ⟨1, ![n]⟩ := hred.elim fun h hb => ⟨h, Nat.one_pos, hb⟩
  rw [Host.reduce_eq_fold_single IntOp.andi _ _ hred hR hS (ix1 q)]
  refine (fold_and_fin_one _ _).trans ?_
  show IntOp.andi (IntOp.andi
      (IntOp.cmpi .sge (J (hR.lift (ix1 q) (0 : Fin 1)))
        (broadcastInDim ⟨2, ![n, 1]⟩ ![] hb6 (constantI ⟨0, ![]⟩ 32 lo) (hR.lift (ix1 q) (0 : Fin 1))))
      (IntOp.cmpi .sle (J (hR.lift (ix1 q) (0 : Fin 1)))
        (broadcastInDim ⟨2, ![n, 1]⟩ ![0, 1] hb9 (broadcastInDim ⟨2, ![1, 1]⟩ ![1] hb8 (constantI ⟨1, ![1]⟩ 32 top))
          (hR.lift (ix1 q) (0 : Fin 1))))) 1#1 = _
  rw [lift_unit hR q (0 : Fin 1), broadcastInDim_scalar_apply,
    broadcastInDim_apply _ hb9 _ _ (ix2 (0 : Fin 1) (0 : Fin 1)) (fun a => by
      match a with
      | ⟨0, _⟩ => rfl
      | ⟨1, _⟩ => rfl),
    broadcastInDim_apply _ hb8 _ _ (ix1 (0 : Fin 1)) (fun a => by
      match a with
      | ⟨0, _⟩ => rfl)]
  rfl

/-- n values broadcast along the rows of an [r, n] array read, at (p, q), value q. -/
theorem rows_apply {α : Type} {r : Nat} (h : (⟨1, ![n]⟩ : Shape).BroadcastsInDim ⟨2, ![r, n]⟩ ![1])
    (v : (⟨1, ![n]⟩ : Shape).Idx → α) (p : Fin r) (q : Fin n) :
    broadcastInDim ⟨2, ![r, n]⟩ ![1] h v (ix2 p q) = v (ix1 q) := by
  refine broadcastInDim_apply _ h v _ (ix1 q) fun a => ?_
  match a with
  | ⟨0, _⟩ =>
    show q.val = if n = 1 then 0 else q.val
    split
    · have := q.isLt; omega
    · rfl

/-- n values broadcast along the two leading axes of a [b, r, n] array read, at (u, p, q), value q. -/
theorem rows3_apply {α : Type} {b r : Nat} (h : (⟨1, ![n]⟩ : Shape).BroadcastsInDim ⟨3, ![b, r, n]⟩ ![2])
    (v : (⟨1, ![n]⟩ : Shape).Idx → α) (u : Fin b) (p : Fin r) (q : Fin n) :
    broadcastInDim ⟨3, ![b, r, n]⟩ ![2] h v (ix3 u p q) = v (ix1 q) := by
  refine broadcastInDim_apply _ h v _ (ix1 q) fun a => ?_
  match a with
  | ⟨0, _⟩ =>
    show q.val = if n = 1 then 0 else q.val
    split
    · have := q.isLt; omega
    · rfl

end Cert.LibTake

end
-- ==== Proof.LibHostRows.lean ====
/-
  Host operations along the rows of a two-axis array, read at an index, on the extended reals.

  Three readings, for any extents: a gather that picks columns of an [n, c] array by a table of k column numbers
  (result (r, q) is the operand at row r and the q-th table entry, the entry read as a signed integer and clamped
  into the columns [0, c - 1], as the gather clamps every start index); the maximum of each row from an initial
  value; and the sum of each row added to an initial value. One fact about a bit pattern goes with them: the
  pattern of negative infinity denotes the bottom of the extended reals.
-/
import Idealize.ShloMosaic.PureOps.Ideal
import Idealize.ShloMosaic.PureOps.Ideal.Laws
import Idealize.ShloMosaic.Lib.ValueIdx

noncomputable section

open scoped BigOperators

namespace Cert.LibHostRows

open Idealize.ShloMosaic Idealize.ShloMosaic.ValueIdx

/-! ## Picking columns by a table -/

section Gather
variable {α : Type}

/-- The dimension numbers of a gather that keeps the operand's rows whole and picks one column per table entry:
    the result's axis 0 is the operand's axis 0, the operand's axis 1 is collapsed and indexed by the table, whose
    axis 1 holds the one-component index. -/
abbrev colsDims (n c k : Nat)
    (wf : GatherDims.WF ⟨2, ![n, c]⟩ ⟨2, ![k, 1]⟩ ⟨2, ![n, k]⟩ [0] [1] [] [1] [] 1 ![n, 1]) :
    GatherDims ⟨2, ![n, c]⟩ ⟨2, ![k, 1]⟩ ⟨2, ![n, k]⟩ where
  offsetDims := [0]
  collapsedSliceDims := [1]
  operandBatchingDims := []
  startIndicesBatchingDims := []
  startIndexMap := [1]
  indexVectorDim := 1
  sliceSizes := ![n, 1]
  wf := wf

/-- The gather read at (r, q): the operand at row r and column the q-th table entry, clamped into [0, c - 1]. -/
theorem gather_cols_apply {n c k w : Nat} (hc : 0 < c)
    (wf : GatherDims.WF ⟨2, ![n, c]⟩ ⟨2, ![k, 1]⟩ ⟨2, ![n, k]⟩ [0] [1] [] [1] [] 1 ![n, 1])
    (x : (⟨2, ![n, c]⟩ : Shape).Idx → α) (idx : IVec ⟨2, ![k, 1]⟩ w) (r : Fin n) (q : Fin k) :
    Host.gather (colsDims n c k wf) x idx (ix2 r q)
      = x (ix2 r ⟨min (idx (ix2 q (0 : Fin 1))).toInt.toNat (c - 1), by omega⟩) := by
  unfold Host.gather
  congr 1
  funext a
  refine Fin.ext ?_
  match a with
  | ⟨0, _⟩ =>
    show (colsDims n c k wf).start (ix2 r q) idx 0 + (colsDims n c k wf).batchCoord (ix2 r q) 0
        + (colsDims n c k wf).offCoord (ix2 r q) 0 = r.val
    rw [GatherDims.batchCoord_eq_zero _ _ _ List.not_mem_nil]
    unfold GatherDims.start
    rw [dif_neg (show (0 : Fin 2) ∉ (colsDims n c k wf).startIndexMap from
      show (0 : Fin 2) ∉ ([1] : List (Fin 2)) from by decide)]
    unfold GatherDims.offCoord
    rw [dif_pos (show (0 : Fin 2) ∈ (colsDims n c k wf).sKept from (GatherDims.mem_sKept _ _).mpr
      ⟨show (0 : Fin 2) ∉ ([1] : List (Fin 2)) from by decide, List.not_mem_nil⟩)]
    simp only [Nat.zero_add, Nat.add_zero]
    rfl
  | ⟨1, _⟩ =>
    show (colsDims n c k wf).start (ix2 r q) idx 1 + (colsDims n c k wf).batchCoord (ix2 r q) 1
        + (colsDims n c k wf).offCoord (ix2 r q) 1 = min (idx (ix2 q (0 : Fin 1))).toInt.toNat (c - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims n c k wf).startIndexMap from List.mem_singleton.mpr rfl)]
    have hsi : (colsDims n c k wf).siIdx (ix2 r q) ⟨List.idxOf (1 : Fin 2) (colsDims n c k wf).startIndexMap,
        List.idxOf_lt_length_iff.2 (List.mem_singleton.mpr rfl)⟩ = ix2 q (0 : Fin 1) := by
      funext b; refine Fin.ext ?_
      match b with
      | ⟨0, _⟩ => rfl
      | ⟨1, _⟩ => rfl
    rw [hsi]
    rfl

end Gather

/-! ## A row's maximum and a row's sum on the host -/

/-- The host's maximum-reduction of an [m, n] array over axis 1 reads, at p, the maximum from the initial value
    over k of the array at (p, k). -/
theorem hostReduceMax_row {φ : FTy} {m n : ℕ} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce FloatOps.maximumf x init h' hu (ix1 p)
      = (Finset.univ : Finset (Fin n)).fold max (init (Shape.Idx.first hu)) (fun k => x (ix2 p k)) := by
  rw [Host.reduce_eq_fold_single FloatOps.maximumf x init h' h hu]
  show (Finset.univ : Finset (Fin n)).fold max (init (Shape.Idx.first hu)) (x ∘ h.lift (ix1 p)) = _
  refine congrArg (fun f => Finset.fold max (init (Shape.Idx.first hu)) f Finset.univ) (funext fun k => ?_)
  refine congrArg x (funext fun e => Fin.ext ?_)
  match e with
  | ⟨0, _⟩ => rfl
  | ⟨1, _⟩ => rfl

/-- The host's sum of an [m, n] array over axis 1 reads, at p, the initial value plus the sum over k of the array
    at (p, k). -/
theorem hostReduceAdd_row {φ : FTy} {m n : ℕ} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  show Ideal.hostReduceAdd h' x (init (Shape.Idx.first hu)) (ix1 p) = _
  rw [Ideal.hostReduceAdd_single h' h]
  refine congrArg (init (Shape.Idx.first hu) + ·) (Finset.sum_congr rfl fun k _ => ?_)
  refine congrArg x (funext fun e => Fin.ext ?_)
  match e with
  | ⟨0, _⟩ => rfl
  | ⟨1, _⟩ => rfl

/-! ## Negative infinity -/

/-- The single-precision pattern of negative infinity denotes the bottom of the extended reals. -/
theorem ofBits_neg_inf_f32 : Ideal.ofBits .f32 0xFF800000#32 = ⊥ := by simp [Ideal.ofBits, Ideal.ieee]

end Cert.LibHostRows

end
-- ==== Proof.KHost.lean ====
/-
  What the idealized kernel's host operations before its pipelined call hand to that call, as functions of the
  two argument arrays, and each read at an index.

  The positions are flattened; floor and ceil of each are taken, the ceil replaced by 92159 where it equals 92160;
  both are converted to column words and laid end to end as one list of twice as many words; one table lookup of
  that list gives a [4, 2 * 11796480] array whose left half holds the lower neighbours and whose right half the
  upper ones. Read at row c and position q the left half is the lookup of row c at the lower word of position q,
  the right half the lookup at the upper word: the two arrays of neighbours of the specification.
-/
import proofs.«421777_j43198781063627_3_alg».proof.Proof.Gen.KernelIdeal.Frame
import proofs.«421777_j43198781063627_3_alg».proof.Proof.Spec
import proofs.«421777_j43198781063627_3_alg».proof.Proof.LibTake
import proofs.«421777_j43198781063627_3_alg».proof.Proof.LibHostRows
import Idealize.ShloMosaic.Lib.StableHlo.Run
import Idealize.ShloMosaic.Lib.ValueLayout
import Idealize.ShloMosaic.Lib.IdealHost

set_option maxRecDepth 16384

noncomputable section

namespace Cert.KernelIdeal.KHost

open Idealize.ShloMosaic Idealize.ShloMosaic.TcCoe Idealize.SL.Sem Idealize.ShloMosaic.StableHlo
open Idealize.ShloMosaic.ValueIdx
open Cert.KernelIdeal Cert.KernelIdeal.Gen

variable {F : FTy → Type} [FloatOps F]

/-! ## The host operations as functions -/

/-- The positions, flattened. -/
def flat (idx : FVec F S256x256x180 .f32) : FVec F S11796480 .f32 :=
  shapeCast S11796480 idx shapeCasts_S256x256x180_S11796480

/-- The upper neighbour of each position: its ceil, or the literal 92159.0 where the ceil equals 92160.0. -/
def upper (I : FVec F S11796480 .f32) : FVec F S11796480 .f32 :=
  select (cmpf .oeq (Host.ceil I) (broadcastInDim S11796480 ![] bcast_S_S11796480 (constant S_ .f32 0x47B40000#32)))
    (broadcastInDim S11796480 ![] bcast_S_S11796480 (constant S_ .f32 0x47B3FF80#32)) (Host.ceil I)

/-- The lower words followed by the upper words. -/
def words (I : FVec F S11796480 .f32) : IVec S23592960 32 :=
  concatenate S23592960 0 [⟨S11796480, fptosi 32 (Host.floor I)⟩, ⟨S11796480, fptosi 32 (upper I)⟩]
    concatenates_S11796480_S11796480_S23592960_d0

/-- The words as the lookup uses them: negatives wrapped, laid out as a one-column table. -/
def table (j : IVec S23592960 32) : IVec S23592960x1 32 :=
  broadcastInDim S23592960x1 ![0] bcast_S23592960_S23592960x1_0
    (select (cmpi .slt j (broadcastInDim S23592960 ![] bcast_S_S23592960 (constantI S_ 32 0#32)))
      (addi j (broadcastInDim S23592960 ![] bcast_S_S23592960 (constantI S_ 32 92160#32))) j)

/-- The table lookup: every row of x at each word, the fill value where the word is out of range. -/
def lookup (x : FVec F S4x92160 .f32) (j : IVec S23592960 32) : FVec F S4x23592960 .f32 :=
  select
    (broadcastInDim S4x23592960 ![1] bcast_S23592960_S4x23592960_1
      (Host.reduce IntOp.andi
        (andi (cmpi .sge (table j) (broadcastInDim S23592960x1 ![] bcast_S_S23592960x1 (constantI S_ 32 0#32)))
          (cmpi .sle (table j) (broadcastInDim S23592960x1 ![0, 1] bcast_S1x1_S23592960x1_0_1
            (broadcastInDim S1x1 ![1] bcast_S1_S1x1_1 (constantI S1 32 92159#32)))))
        (constantI S_ 1 1#1) reducesTo_S23592960x1_S23592960_d1 h_S_))
    (Host.gather gather_S4x92160_S23592960x1_S4x23592960_0_1_n_n_1_1_41 x (table j))
    (broadcastInDim S4x23592960 ![] bcast_S_S4x23592960 (constant S_ .f32 0x7FC00000#32))

/-- The lower neighbours: the left half of the lookup. -/
def lowK (x : FVec F S4x92160 .f32) (I : FVec F S11796480 .f32) : FVec F S4x11796480 .f32 :=
  extractStridedSlice S4x11796480 ![0, 0] (lookup x (words I)) slices_S4x23592960_S4x11796480_0_0

/-- The upper neighbours: the right half of the lookup. -/
def highK (x : FVec F S4x92160 .f32) (I : FVec F S11796480 .f32) : FVec F S4x11796480 .f32 :=
  extractStridedSlice S4x11796480 ![0, 11796480] (lookup x (words I)) slices_S4x23592960_S4x11796480_0_11796480

end Cert.KernelIdeal.KHost

end
-- ==== Proof.KHostShort.lean ====
/-
  The short stretches of host operations before the pipelined call, each read over any buffer contents: the
  two halves cut out of the lookup, the list of words, the upper neighbour's select, and the first seven
  operations on the flattened positions.
-/
import proofs.«421777_j43198781063627_3_alg».proof.Proof.KHost
import Idealize.ShloMosaic.Lib.StableHlo.Run

set_option maxRecDepth 16384

noncomputable section

namespace Cert.KernelIdeal.KHost

open Idealize.ShloMosaic Idealize.ShloMosaic.TcCoe Idealize.SL.Sem Idealize.ShloMosaic.StableHlo
open Idealize.ShloMosaic.ValueIdx
open Cert.KernelIdeal Cert.KernelIdeal.Gen

variable {F : FTy → Type} [FloatOps F]
variable (W : Valuation τ sig (Elt F))

theorem s4_v10 : after (hostOps0_4 (F := F)) W (Proc.devRef .tc main_v10)
    = extractStridedSlice S4x11796480 ![0, 0] (W (Proc.devRef .tc main_v9)) slices_S4x23592960_S4x11796480_0_0 := by
  after_results
theorem s4_v11 : after (hostOps0_4 (F := F)) W (Proc.devRef .tc main_v11)
    = extractStridedSlice S4x11796480 ![0, 11796480] (W (Proc.devRef .tc main_v9)) slices_S4x23592960_S4x11796480_0_11796480 := by
  after_results
theorem s4_v0 : after (hostOps0_4 (F := F)) W (Proc.devRef .tc main_v0) = W (Proc.devRef .tc main_v0) := by
  after_results

theorem s2_v8 : after (hostOps0_2 (F := F)) W (Proc.devRef .tc main_v8)
    = concatenate S23592960 0 [⟨S11796480, fptosi 32 (W (Proc.devRef .tc main_v1))⟩, ⟨S11796480, fptosi 32 (W (Proc.devRef .tc main_v5))⟩]
        concatenates_S11796480_S11796480_S23592960_d0 := by
  after_results
theorem s2_arg0 : after (hostOps0_2 (F := F)) W (Proc.devRef .tc main_arg0) = W (Proc.devRef .tc main_arg0) := by
  after_results
theorem s2_v0 : after (hostOps0_2 (F := F)) W (Proc.devRef .tc main_v0) = W (Proc.devRef .tc main_v0) := by
  after_results

theorem s1_v5 : after (hostOps0_1 (F := F)) W (Proc.devRef .tc main_v5)
    = select (W (Proc.devRef .tc main_v4)) (broadcastInDim S11796480 ![] bcast_S_S11796480 (W (Proc.devRef .tc main_cst_0)))
        (W (Proc.devRef .tc main_v2)) := by
  after_results
  rfl
theorem s1_v1 : after (hostOps0_1 (F := F)) W (Proc.devRef .tc main_v1) = W (Proc.devRef .tc main_v1) := by
  after_results
theorem s1_arg0 : after (hostOps0_1 (F := F)) W (Proc.devRef .tc main_arg0) = W (Proc.devRef .tc main_arg0) := by
  after_results
theorem s1_v0 : after (hostOps0_1 (F := F)) W (Proc.devRef .tc main_v0) = W (Proc.devRef .tc main_v0) := by
  after_results

theorem s0_v0 : after (hostOps0 (F := F)) W (Proc.devRef .tc main_v0) = flat (W (Proc.devRef .tc main_arg1)) := by
  after_results
  rfl
theorem s0_v1 : after (hostOps0 (F := F)) W (Proc.devRef .tc main_v1) = Host.floor (flat (W (Proc.devRef .tc main_arg1))) := by
  after_results
  rfl
theorem s0_v2 : after (hostOps0 (F := F)) W (Proc.devRef .tc main_v2) = Host.ceil (flat (W (Proc.devRef .tc main_arg1))) := by
  after_results
  rfl
theorem s0_v4 : after (hostOps0 (F := F)) W (Proc.devRef .tc main_v4)
    = cmpf .oeq (Host.ceil (flat (W (Proc.devRef .tc main_arg1))))
        (broadcastInDim S11796480 ![] bcast_S_S11796480 (constant S_ .f32 0x47B40000#32)) := by
  after_results
  rfl
theorem s0_cst_0 : after (hostOps0 (F := F)) W (Proc.devRef .tc main_cst_0) = constant S_ .f32 0x47B3FF80#32 := by
  after_results
theorem s0_arg0 : after (hostOps0 (F := F)) W (Proc.devRef .tc main_arg0) = W (Proc.devRef .tc main_arg0) := by
  after_results

end Cert.KernelIdeal.KHost

end
-- ==== Proof.KHostLookup.lean ====
/-
  The table lookup's twenty-three host operations, read over any buffer contents: their result is the lookup
  of the table held in the first argument's buffer at the list of words held in the concatenation's buffer.

  The operations fall into three runs, each read by itself over any buffer contents. The first eight wrap the
  negative words and lay the words out as a one-column table. The next ten compute, from that column alone, the
  mask of the words that lie in [0, 92159]. The last five gather the table's rows at the column, lay the mask and
  the fill value over the 4 rows, and select. Run one after the other, the three give the lookup.
-/
import proofs.«421777_j43198781063627_3_alg».proof.Proof.KHost
import Idealize.ShloMosaic.Lib.StableHlo.Run

set_option maxRecDepth 16384

noncomputable section

namespace Cert.KernelIdeal.KHost

open Idealize.ShloMosaic Idealize.ShloMosaic.TcCoe Idealize.SL.Sem Idealize.ShloMosaic.StableHlo
open Idealize.ShloMosaic.ValueIdx
open Cert.KernelIdeal Cert.KernelIdeal.Gen

variable {F : FTy → Type} [FloatOps F]
variable (W : Valuation τ sig (Elt F))

/-! ## The three runs of operations -/

/-- Operations 1 to 8: zero and 92160 laid over the words, the comparison with zero, the sum, the select between
    them, and the result laid out as one column. -/
abbrev h3a : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S23592960, .i32⟩) (broadcastInDim S23592960 ![] bcast_S_S23592960),
    StableHlo.TRef.binary (.of main_v8 : StableHlo.TRef sig ⟨S23592960, .i32⟩) (.of main_call1_v0 : StableHlo.TRef sig ⟨S23592960, .i32⟩) (.of main_call1_v1 : StableHlo.TRef sig ⟨S23592960, .i1⟩) (cmpi .slt),
    StableHlo.TRef.nullary (.of main_call1_c_0 : StableHlo.TRef sig ⟨S_, .i32⟩) (constantI S_ 32 92160#32),
    StableHlo.TRef.unary (.of main_call1_c_0 : StableHlo.TRef sig ⟨S_, .i32⟩) (.of main_call1_v2 : StableHlo.TRef sig ⟨S23592960, .i32⟩) (broadcastInDim S23592960 ![] bcast_S_S23592960),
    StableHlo.TRef.binary (.of main_v8 : StableHlo.TRef sig ⟨S23592960, .i32⟩) (.of main_call1_v2 : StableHlo.TRef sig ⟨S23592960, .i32⟩) (.of main_call1_v3 : StableHlo.TRef sig ⟨S23592960, .i32⟩) addi,
    StableHlo.TRef.ternary (.of main_call1_v1 : StableHlo.TRef sig ⟨S23592960, .i1⟩) (.of main_call1_v3 : StableHlo.TRef sig ⟨S23592960, .i32⟩) (.of main_v8 : StableHlo.TRef sig ⟨S23592960, .i32⟩) (.of main_call1_v4 : StableHlo.TRef sig ⟨S23592960, .i32⟩) select,
    StableHlo.TRef.unary main_call1_call0.v0 (.of main_call1_v5 : StableHlo.TRef sig ⟨S23592960x1, .i32⟩) (broadcastInDim S23592960x1 ![0] bcast_S23592960_S23592960x1_0) ]

/-- After the first run the column buffer holds the words wrapped and laid out as a column. -/
theorem s3a_v5 : after (h3a (F := F)) W (Proc.devRef .tc main_call1_v5) = table (W (Proc.devRef .tc main_v8)) := by
  after_results
  rfl
/-- The first run leaves the table's buffer as it was. -/
theorem s3a_arg0 : after (h3a (F := F)) W (Proc.devRef .tc main_arg0) = W (Proc.devRef .tc main_arg0) := by
  after_results

/-- Operations 9 to 18: 92159 and zero laid over the column, the two comparisons, their conjunction, and its
    reduction along the unit axis from the initial value true. -/
abbrev h3b : List (HloOp τ sig (Elt F)) :=
  [ StableHlo.TRef.nullary (.of main_call1_c_1 : StableHlo.TRef sig ⟨S1, .i32⟩) (constantI S1 32 92159#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S23592960x1, .i32⟩) (broadcastInDim S23592960x1 ![] bcast_S_S23592960x1),
    StableHlo.TRef.binary (.of main_call1_v5 : StableHlo.TRef sig ⟨S23592960x1, .i32⟩) (.of main_call1_v6 : StableHlo.TRef sig ⟨S23592960x1, .i32⟩) (.of main_call1_v7 : StableHlo.TRef sig ⟨S23592960x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S23592960x1, .i32⟩) (broadcastInDim S23592960x1 ![0, 1] bcast_S1x1_S23592960x1_0_1),
    StableHlo.TRef.binary (.of main_call1_v5 : StableHlo.TRef sig ⟨S23592960x1, .i32⟩) (.of main_call1_v9 : StableHlo.TRef sig ⟨S23592960x1, .i32⟩) (.of main_call1_v10 : StableHlo.TRef sig ⟨S23592960x1, .i1⟩) (cmpi .sle),
    StableHlo.TRef.binary (.of main_call1_v7 : StableHlo.TRef sig ⟨S23592960x1, .i1⟩) (.of main_call1_v10 : StableHlo.TRef sig ⟨S23592960x1, .i1⟩) (.of main_call1_v11 : StableHlo.TRef sig ⟨S23592960x1, .i1⟩) andi,
    StableHlo.TRef.nullary (.of main_call1_c_3 : StableHlo.TRef sig ⟨S_, .i1⟩) (constantI S_ 1 1#1),
    StableHlo.TRef.binary (.of main_call1_v11 : StableHlo.TRef sig ⟨S23592960x1, .i1⟩) (.of main_call1_c_3 : StableHlo.TRef sig ⟨S_, .i1⟩) (.of main_call1_v12 : StableHlo.TRef sig ⟨S23592960, .i1⟩) (fun x v => Host.reduce IntOp.andi x v reducesTo_S23592960x1_S23592960_d1 h_S_) ]

/-- The mask of a column of words: which of them lie in [0, 92159], as the operations compute it. -/
def s3_mask (t : IVec S23592960x1 32) : IVec S23592960 1 :=
  Host.reduce IntOp.andi
    (andi (cmpi .sge t (broadcastInDim S23592960x1 ![] bcast_S_S23592960x1 (constantI S_ 32 0#32)))
      (cmpi .sle t (broadcastInDim S23592960x1 ![0, 1] bcast_S1x1_S23592960x1_0_1
        (broadcastInDim S1x1 ![1] bcast_S1_S1x1_1 (constantI S1 32 92159#32)))))
    (constantI S_ 1 1#1) reducesTo_S23592960x1_S23592960_d1 h_S_

attribute [local irreducible] Host.reduce in
/-- After the second run the mask buffer holds the mask of the column. -/
theorem s3b_v12 : after (h3b (F := F)) W (Proc.devRef .tc main_call1_v12) = s3_mask (W (Proc.devRef .tc main_call1_v5)) := by
  after_results
  rfl
/-- The second run leaves the column as it was, -/
theorem s3b_v5 : after (h3b (F := F)) W (Proc.devRef .tc main_call1_v5) = W (Proc.devRef .tc main_call1_v5) := by
  after_results
/-- and the table's buffer. -/
theorem s3b_arg0 : after (h3b (F := F)) W (Proc.devRef .tc main_arg0) = W (Proc.devRef .tc main_arg0) := by
  after_results

/-- Operations 19 to 23: the gather of the table's rows at the column, the mask laid over the 4 rows, the fill
    value laid over the whole array, and the select. -/
abbrev h3c : List (HloOp τ sig (Elt F)) :=
  [ StableHlo.TRef.binary (.of main_arg0 : StableHlo.TRef sig ⟨S4x92160, .f32⟩) (.of main_call1_v5 : StableHlo.TRef sig ⟨S23592960x1, .i32⟩) (.of main_call1_v13 : StableHlo.TRef sig ⟨S4x23592960, .f32⟩) (fun x i => Host.gather gather_S4x92160_S23592960x1_S4x23592960_0_1_n_n_1_1_41 x i),
    StableHlo.TRef.unary (.of main_call1_v12 : StableHlo.TRef sig ⟨S23592960, .i1⟩) (.of main_call1_v14 : StableHlo.TRef sig ⟨S4x23592960, .i1⟩) (broadcastInDim S4x23592960 ![1] bcast_S23592960_S4x23592960_1),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S4x23592960, .f32⟩) (broadcastInDim S4x23592960 ![] bcast_S_S4x23592960),
    StableHlo.TRef.ternary (.of main_call1_v14 : StableHlo.TRef sig ⟨S4x23592960, .i1⟩) (.of main_call1_v13 : StableHlo.TRef sig ⟨S4x23592960, .f32⟩) (.of main_call1_v15 : StableHlo.TRef sig ⟨S4x23592960, .f32⟩) (.of main_v9 : StableHlo.TRef sig ⟨S4x23592960, .f32⟩) select ]

attribute [local irreducible] Host.gather in
/-- After the third run the result buffer holds the gathered rows where the mask is set, the fill value elsewhere. -/
theorem s3c_v9 : after (h3c (F := F)) W (Proc.devRef .tc main_v9)
    = select (broadcastInDim S4x23592960 ![1] bcast_S23592960_S4x23592960_1 (W (Proc.devRef .tc main_call1_v12)))
        (Host.gather gather_S4x92160_S23592960x1_S4x23592960_0_1_n_n_1_1_41 (W (Proc.devRef .tc main_arg0))
          (W (Proc.devRef .tc main_call1_v5)))
        (broadcastInDim S4x23592960 ![] bcast_S_S4x23592960 (constant S_ .f32 0x7FC00000#32)) := by
  after_results
  rfl

/-! ## The runs one after the other -/

/-- The twenty-three operations are the three runs in a row. -/
theorem h3_split : hostOps0_3 (F := F) = h3a ++ (h3b ++ h3c) := rfl

attribute [local irreducible] Host.reduce Host.gather in
/-- THE LOOKUP: after the twenty-three operations the result buffer holds the lookup of the table at the words.
    The third run's result is read at what the second leaves, that at what the first leaves, and the mask and the
    gather then both stand over the same column, the wrapped words: the lookup as defined. -/
theorem s3_v9 : after (hostOps0_3 (F := F)) W (Proc.devRef .tc main_v9)
    = lookup (W (Proc.devRef .tc main_arg0)) (W (Proc.devRef .tc main_v8)) := by
  rw [h3_split, after_append, after_append, s3c_v9, s3b_v12, s3b_arg0, s3b_v5, s3a_v5, s3a_arg0]
  rfl
/-- The flattened positions pass through the twenty-three operations untouched. -/
theorem s3_v0 : after (hostOps0_3 (F := F)) W (Proc.devRef .tc main_v0) = W (Proc.devRef .tc main_v0) := by
  after_results

end Cert.KernelIdeal.KHost

end
-- ==== Proof.KHostV.lean ====
/-
  The three arrays the pipelined call of the idealized kernel is handed, as functions of the two argument arrays:
  the host operations before the call run stretch after stretch, each from what the one before left, and the
  call's operands come out as the flattened positions, the lower neighbours and the upper neighbours.
-/
import proofs.«421777_j43198781063627_3_alg».proof.Proof.KHostShort
import proofs.«421777_j43198781063627_3_alg».proof.Proof.KHostLookup

set_option maxRecDepth 16384

noncomputable section

namespace Cert.KernelIdeal.KHost

open Idealize.ShloMosaic Idealize.ShloMosaic.TcCoe Idealize.SL.Sem Idealize.ShloMosaic.StableHlo
open Idealize.ShloMosaic.ValueIdx
open Cert.KernelIdeal Cert.KernelIdeal.Gen

variable {F : FTy → Type} [FloatOps F]

/-! ## The three arrays the pipelined call is handed -/

variable (m : (ℓ : Loc nD τ sig) → Buf (Elt F) ℓ)

/-- The host operations before the call, stretch after stretch. -/
theorem V0_eq (c : Dev nD) : V0 m c
    = after hostOps0_4 (after hostOps0_3 (after hostOps0_2 (after hostOps0_1 (after hostOps0 (fun b => m (c, b)))))) := by
  show after (List.flatten [hostOps0, hostOps0_1, hostOps0_2, hostOps0_3, hostOps0_4]) (fun b => m (c, b)) = _
  rw [show List.flatten [hostOps0 (F := F), hostOps0_1, hostOps0_2, hostOps0_3, hostOps0_4]
      = hostOps0 ++ (hostOps0_1 ++ (hostOps0_2 ++ (hostOps0_3 ++ hostOps0_4))) from by
    simp only [List.flatten_cons, List.flatten_nil, List.append_nil]]
  rw [after_append, after_append, after_append, after_append]

/-- The call's third operand is the flattened positions. -/
theorem V_main_v0 (c : Dev nD) : V m c main_v0 = flat (m ((c : Thread nD τ).loc main_arg1)) := by
  show V0 m c (Proc.devRef .tc main_v0) = _
  rw [V0_eq, s4_v0, s3_v0, s2_v0, s1_v0, s0_v0]

/-- The call's first operand is the lower neighbours. -/
theorem V_main_v10 (c : Dev nD) :
    V m c main_v10 = lowK (m ((c : Thread nD τ).loc main_arg0)) (flat (m ((c : Thread nD τ).loc main_arg1))) := by
  show V0 m c (Proc.devRef .tc main_v10) = _
  rw [V0_eq, s4_v10, s3_v9, s2_arg0, s2_v8, s1_arg0, s1_v1, s1_v5, s0_arg0, s0_v1, s0_v4, s0_cst_0, s0_v2]
  rfl

/-- The call's second operand is the upper neighbours. -/
theorem V_main_v11 (c : Dev nD) :
    V m c main_v11 = highK (m ((c : Thread nD τ).loc main_arg0)) (flat (m ((c : Thread nD τ).loc main_arg1))) := by
  show V0 m c (Proc.devRef .tc main_v11) = _
  rw [V0_eq, s4_v11, s3_v9, s2_arg0, s2_v8, s1_arg0, s1_v1, s1_v5, s0_arg0, s0_v1, s0_v4, s0_cst_0, s0_v2]
  rfl

end Cert.KernelIdeal.KHost

end
-- ==== Proof.KHostIdx.lean ====
/-
  The kernel's two arrays of neighbours, read at an index on the extended reals: they are the specification's.

  The lookup of a list of column words reads, at row c and entry k, row c of the table at word k (the mask, the
  wrap and the gather's clamp each read at that index). The list of words reads the lower word of position q at
  entry q and the upper word at entry 11796480 + q. The left half of the lookup at (c, q) is its entry q, the
  right half its entry 11796480 + q.
-/
import proofs.«421777_j43198781063627_3_alg».proof.Proof.KHost

set_option maxRecDepth 16384

noncomputable section

namespace Cert.KernelIdeal.KHost

open Idealize.ShloMosaic Idealize.ShloMosaic.TcCoe Idealize.SL.Sem
open Idealize.ShloMosaic.ValueIdx
open Cert.KernelIdeal Cert.KernelIdeal.Gen

/-- The one-column table of words at entry (k, 0): word k, wrapped if negative. -/
theorem table_apply (j : IVec S23592960 32) (k : Fin 23592960) :
    table j (ix2 k (0 : Fin 1)) = Cert.LibTake.wrapWord 92160#32 (j (ix1 k)) := by
  unfold table
  rw [Cert.LibTake.column_apply, Cert.LibTake.wrap_apply]

/-- The gather of the table's columns at row c and entry k, for a one-column table T whose entry (k, 0) is the
    word w: row c at the column w reads, clamped. -/
theorem gather_apply (x : FVec Ideal S4x92160 .f32) (T : IVec S23592960x1 32) (c : Fin 4) (k : Fin 23592960)
    (w : BitVec 32) (hT : T (ix2 k (0 : Fin 1)) = w) :
    Host.gather gather_S4x92160_S23592960x1_S4x23592960_0_1_n_n_1_1_41 x T (ix2 c k) = x (ix2 c (Cert.Spec.colOf w)) := by
  rw [show gather_S4x92160_S23592960x1_S4x23592960_0_1_n_n_1_1_41
      = Cert.LibHostRows.colsDims 4 92160 23592960 gather_S4x92160_S23592960x1_S4x23592960_0_1_n_n_1_1_41_wf from rfl]
  rw [Cert.LibHostRows.gather_cols_apply (by decide)]
  subst hT
  rfl

/-- The lookup at row c and entry k: row c of the table at word k. -/
theorem lookup_apply (x : FVec Ideal S4x92160 .f32) (j : IVec S23592960 32) (c : Fin 4) (k : Fin 23592960) :
    lookup x j (ix2 c k) = Cert.Spec.takeAt x c (j (ix1 k)) := by
  unfold lookup
  rw [select_apply, Cert.LibTake.rows_apply, Cert.LibTake.mask_apply, broadcastInDim_scalar_apply, table_apply,
    gather_apply x (table j) c k _ (table_apply j k)]
  rfl

/-- Entry k = q of the list of words is the lower word of position q. -/
theorem words_lo (I : FVec Ideal S11796480 .f32) (q : Fin 11796480) (k : Fin 23592960) (hk : k.val = q.val) :
    words I (ix1 k) = Cert.Spec.loW (I (ix1 q)) := by
  unfold words
  rw [concatenate_pair_apply_left (t := S23592960) (s₁ := S11796480) (s₂ := S11796480) 0 _ _ _ (ix1 k)
    (rfl : S11796480.rank = S23592960.rank) (ix1 q) (fun b => by
      match b with
      | ⟨0, _⟩ => exact hk.symm)]
  rfl

/-- The upper neighbour at position q, read at that index. -/
theorem upper_apply (I : FVec Ideal S11796480 .f32) (q : Fin 11796480) : upper I (ix1 q) = Cert.Spec.hiF (I (ix1 q)) := by
  unfold upper
  rw [select_apply, cmpf_apply, broadcastInDim_scalar_apply, broadcastInDim_scalar_apply]
  rfl

/-- Entry k = 11796480 + q of the list of words is the upper word of position q. -/
theorem words_hi (I : FVec Ideal S11796480 .f32) (q : Fin 11796480) (k : Fin 23592960) (hk : k.val = 11796480 + q.val) :
    words I (ix1 k) = Cert.Spec.hiW (I (ix1 q)) := by
  unfold words
  rw [concatenate_pair_apply_right (t := S23592960) (s₁ := S11796480) (s₂ := S11796480) 0 _ _ _ (ix1 k)
    (rfl : S11796480.rank = S23592960.rank) (rfl : S11796480.rank = S23592960.rank) (ix1 q)
    (fun b hb => by
      match b with
      | ⟨0, _⟩ => exact absurd rfl hb)
    (by show q.val + 11796480 = k.val; omega)]
  show FloatOps.fptosi 32 (upper I (ix1 q)) = _
  rw [upper_apply]
  rfl

/-- The lower neighbours at row c and position q. -/
theorem lowK_apply (x : FVec Ideal S4x92160 .f32) (I : FVec Ideal S11796480 .f32) (c : Fin 4) (q : Fin 11796480) :
    lowK x I (ix2 c q) = Cert.Spec.takeAt x c (Cert.Spec.loW (I (ix1 q))) := by
  unfold lowK
  rw [slice2_axis1_apply 0 _ _ c q ⟨q.val, by have := q.isLt; omega⟩ (by simp), lookup_apply, words_lo I q _ rfl]

/-- The upper neighbours at row c and position q. -/
theorem highK_apply (x : FVec Ideal S4x92160 .f32) (I : FVec Ideal S11796480 .f32) (c : Fin 4) (q : Fin 11796480) :
    highK x I (ix2 c q) = Cert.Spec.takeAt x c (Cert.Spec.hiW (I (ix1 q))) := by
  unfold highK
  rw [slice2_axis1_apply 11796480 _ _ c q ⟨11796480 + q.val, by have := q.isLt; omega⟩ rfl, lookup_apply,
    words_hi I q _ rfl]

/-- The lower neighbours are the specification's. -/
theorem lowK_eq (x : FVec Ideal S4x92160 .f32) (I : FVec Ideal S11796480 .f32) : lowK x I = Cert.Spec.lowArr x I := by
  funext i
  obtain ⟨c, q, rfl⟩ : ∃ (c : Fin 4) (q : Fin 11796480), i = ix2 c q := ⟨i 0, i 1, eq_ix2 i⟩
  rw [lowK_apply, Cert.Spec.lowArr_apply]

/-- The upper neighbours are the specification's. -/
theorem highK_eq (x : FVec Ideal S4x92160 .f32) (I : FVec Ideal S11796480 .f32) : highK x I = Cert.Spec.highArr x I := by
  funext i
  obtain ⟨c, q, rfl⟩ : ∃ (c : Fin 4) (q : Fin 11796480), i = ix2 c q := ⟨i 0, i 1, eq_ix2 i⟩
  rw [highK_apply, Cert.Spec.highArr_apply]

end Cert.KernelIdeal.KHost

end
-- ==== Proof.KTail.lean ====
/-
  What the one host operation after the pipelined call does: it reshapes the call's [4, 11796480] output array
  to [1, 4, 256, 256, 180]. So the program's result buffer holds that reshape of whatever the call left in its
  output array.
-/
import proofs.«421777_j43198781063627_3_alg».proof.Proof.Gen.KernelIdeal.Frame
import Idealize.ShloMosaic.Lib.StableHlo.Run

set_option maxRecDepth 16384

noncomputable section

namespace Cert.KernelIdeal.KTail

open Idealize.ShloMosaic Idealize.ShloMosaic.TcCoe Idealize.SL.Sem Idealize.ShloMosaic.StableHlo
open Cert.KernelIdeal Cert.KernelIdeal.Gen
open Idealize.ShloMosaic.Pipeline (Dat)

variable {F : FTy → Type} [FloatOps F]
variable (m : (ℓ : Loc nD τ sig) → Buf (Elt F) ℓ)

/-- The result buffer after the whole program: the reshape of the call's output array. -/
theorem tail_eq (c : Dev nD) (G : FVec F S4x11796480 .f32) (hG : (Gen.dats m 0 c).arrAt 3 cfg0.N = G) :
    Pipeline.afterTail₀ cfgs (Gen.dats m) 0 (Gen.V0 m) [hostOps1] c main_v13
      = shapeCast S1x4x256x256x180 G shapeCasts_S4x11796480_S1x4x256x256x180 := by
  unfold Pipeline.afterTail₀
  show StableHlo.after hostOps1 _ (Proc.devRef .tc main_v13) = _
  after_results
  have e : Pipeline.withArrays (cfgs 0).spec c (V0 m c) (fun w => (dats m 0 c).arrAt w (cfgs 0).N)
      (Proc.devRef .tc main_v12) = G :=
    (Pipeline.withArrays_arr spec0 launch0.win.arr_inj c _ _ 3).trans hG
  rw [e]
  rfl

end Cert.KernelIdeal.KTail

end
-- ==== Proof.KRun.lean ====
/-
  The idealized kernel's run, with its result named: every execution ends with the result buffer at the reshape,
  to [1, 4, 256, 256, 180], of the specification's interpolation of the two looked-up neighbours, and with both
  argument arrays unchanged.

  The pipelined call leaves in its output array the interpolation of its three operands (block by block, the
  blocks tiling the array); its operands are the lower neighbours, the upper neighbours and the flattened
  positions as the host operations before the call compute them, and at every index those are the
  specification's two lookups; the one host operation after the call reshapes the output array.
-/
import proofs.«421777_j43198781063627_3_alg».proof.Proof.KFinal
import proofs.«421777_j43198781063627_3_alg».proof.Proof.KHostV
import proofs.«421777_j43198781063627_3_alg».proof.Proof.KHostIdx
import proofs.«421777_j43198781063627_3_alg».proof.Proof.KTail

set_option maxRecDepth 16384

noncomputable section

namespace Cert.KernelIdeal.KRun

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- What the program computes, before its last reshape, from the two argument arrays. -/
abbrev value (c : Dev nD) : FVec Ideal S4x11796480 .f32 :=
  Cert.Spec.blend (m ((c : Thread nD τ).loc main_arg0)) (KHost.flat (m ((c : Thread nD τ).loc main_arg1)))

/-- The pipelined call's output array after the call is the specification's interpolation of the two lookups. -/
theorem output_eq (c : Dev nD) : (Gen.dats (F := Ideal) m 0 c).arrAt 3 cfg0.N = value m c := by
  rw [KFinal.final m c, KHost.V_main_v10, KHost.V_main_v11, KHost.V_main_v0, KHost.lowK_eq, KHost.highK_eq]
  rfl

/-- The run: the result buffer ends at the reshape of that array, the arguments as they were. -/
theorem run : θ_run defs (onTc (τ := τ) (main (F := Ideal))) ⟨m, fun _ => 0, ρ⟩ (fun r => ∀ c : Dev nD,
      r.2.mem ((c.tc : Thread nD τ).loc main_v13)
          = shapeCast S1x4x256x256x180 (value m c) shapeCasts_S4x11796480_S1x4x256x256x180
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v13 (Pipeline.mem_restRefs_of main_v13 (by decide) (by decide))).trans
        (KTail.tail_eq m c (value m c) (output_eq m c)),
      ((h c).2 main_arg0 (Pipeline.mem_restRefs_of main_arg0 (by decide) (by decide))).trans (W_main_arg0 m (Gen.dats m) c),
      ((h c).2 main_arg1 (Pipeline.mem_restRefs_of main_arg1 (by decide) (by decide))).trans (W_main_arg1 m (Gen.dats m) c)⟩)
    (run_main m ρ)

end Cert.KernelIdeal.KRun

end
-- ==== Proof.RefDefs.lean ====
/-
  The reference's result as one pure function of its two arguments.

  The reference samples a table x of 4 rows and 92160 columns at 11796480 fractional positions idx (given as a
  256 x 256 x 180 array). Per position it takes floor and ceil (the ceil replaced by 92159 where it equals
  92160), converts both to 32-bit words, looks both up along the table's last axis (a negative word wraps
  once, a word out of range after that yields the NaN fill word, the gather itself clamps)
  and blends the two lookups by the fractional part. `refOut` composes exactly the operations the reference's
  program performs, in its order and over its shapes, for any float values; the take chain is stated once
  (`takeR`) and used for the lower and for the upper neighbours.
-/
import proofs.«421777_j43198781063627_3_alg».proof.ReferenceIdeal
import proofs.«421777_j43198781063627_3_alg».proof.Proof.Gen.ReferenceIdeal

noncomputable section

namespace Cert.ReferenceIdeal.RefRun

open Cert.ReferenceIdeal Cert.ReferenceIdeal.Gen Idealize.ShloMosaic

variable {F : FTy → Type} [FloatOps F]

/-- A negative column word has the axis length 92160 added to it, once; any other word is kept. -/
def wrapIdx (j : IVec S11796480 32) : IVec S11796480 32 :=
  select (cmpi .slt j (broadcastInDim S11796480 ![] bcast_S_S11796480 (constantI S_ 32 0#32)))
    (addi j (broadcastInDim S11796480 ![] bcast_S_S11796480 (constantI S_ 32 92160#32))) j

/-- The wrapped words as a table of one column: the start indices of the gather. -/
def colIdx (j : IVec S11796480 32) : IVec S11796480x1 32 :=
  broadcastInDim S11796480x1 ![0] bcast_S11796480_S11796480x1_0 (wrapIdx j)

/-- Per position, whether the wrapped word lies in [0, 92159]: the two comparisons joined, then reduced with
    `and` over the unit axis from the initial value true. -/
def inRange (j : IVec S11796480 32) : IVec S11796480 1 :=
  Host.reduce IntOp.andi
    (andi (cmpi .sge (colIdx j) (broadcastInDim S11796480x1 ![] bcast_S_S11796480x1 (constantI S_ 32 0#32)))
      (cmpi .sle (colIdx j)
        (broadcastInDim S11796480x1 ![0, 1] bcast_S1x1_S11796480x1_0_1 (broadcastInDim S1x1 ![1] bcast_S1_S1x1_1 (constantI S1 32 92159#32)))))
    (constantI S_ 1 1#1) reducesTo_S11796480x1_S11796480_d1 h_S_

/-- The last step of a lookup: the gathered values where the mask is set, the NaN fill word elsewhere (the mask
    given per position, the same for every row). -/
def fillOut (ok : IVec S11796480 1) (g : FVec F S1x4x11796480 .f32) : FVec F S1x4x11796480 .f32 :=
  select (broadcastInDim S1x4x11796480 ![2] bcast_S11796480_S1x4x11796480_2 ok) g
    (broadcastInDim S1x4x11796480 ![] bcast_S_S1x4x11796480 (constant S_ .f32 0x7FC00000#32))

/-- The take along the last axis: the table's columns gathered at the wrapped words (the gather clamps), and the
    NaN fill word wherever the wrapped word is out of range. -/
def takeR (x3 : FVec F S1x4x92160 .f32) (j : IVec S11796480 32) : FVec F S1x4x11796480 .f32 :=
  fillOut (inRange j) (Host.gather gather_S1x4x92160_S11796480x1_S1x4x11796480_01_2_n_n_2_1_141 x3 (colIdx j))

/-- The upper neighbour before conversion: ceil, with the integer 92159 (converted to a float) where the ceil
    equals the literal 92160.0. -/
def hiClamp (idx : FVec F S256x256x180 .f32) : FVec F S256x256x180 .f32 :=
  select (cmpf .oeq (Host.ceil idx) (broadcastInDim S256x256x180 ![] bcast_S_S256x256x180 (constant S_ .f32 0x47B40000#32)))
    (broadcastInDim S256x256x180 ![] bcast_S_S256x256x180 (sitofp (F := F) .f32 (constantI S_ 32 92159#32)))
    (Host.ceil idx)

/-- The lower neighbours' column words, flattened. -/
def loIdx (idx : FVec F S256x256x180 .f32) : IVec S11796480 32 :=
  shapeCast S11796480 (fptosi 32 (Host.floor idx)) shapeCasts_S256x256x180_S11796480

/-- The upper neighbours' column words, flattened. -/
def hiIdx (idx : FVec F S256x256x180 .f32) : IVec S11796480 32 :=
  shapeCast S11796480 (fptosi 32 (hiClamp idx)) shapeCasts_S256x256x180_S11796480

/-- The fractional parts idx - floor idx, flattened. -/
def fracR (idx : FVec F S256x256x180 .f32) : FVec F S11796480 .f32 :=
  shapeCast S11796480 (subf idx (Host.floor idx)) shapeCasts_S256x256x180_S11796480

/-- One weight per position, repeated over the unit axis and the four rows. -/
def spread (w : FVec F S11796480 .f32) : FVec F S1x4x11796480 .f32 :=
  broadcastInDim S1x4x11796480 ![0, 1, 2] bcast_S1x1x11796480_S1x4x11796480_0_1_2 (broadcastInDim S1x1x11796480 ![2] bcast_S11796480_S1x1x11796480_2 w)

/-- low * (1 - w) + high * w, the weight spread over the rows. -/
def lerpR (low high : FVec F S1x4x11796480 .f32) (w : FVec F S11796480 .f32) : FVec F S1x4x11796480 .f32 :=
  addf (mulf low (spread (subf (broadcastInDim S11796480 ![] bcast_S_S11796480 (constant S_ .f32 0x3F800000#32)) w)))
    (mulf high (spread w))

/-- The result before its last reshape: the two lookups of the table (given a leading unit axis) blended by the
    fractional parts. -/
def refBody (x : FVec F S4x92160 .f32) (idx : FVec F S256x256x180 .f32) : FVec F S1x4x11796480 .f32 :=
  lerpR (takeR (shapeCast S1x4x92160 x shapeCasts_S4x92160_S1x4x92160) (loIdx idx))
    (takeR (shapeCast S1x4x92160 x shapeCasts_S4x92160_S1x4x92160) (hiIdx idx)) (fracR idx)

/-- THE REFERENCE'S RESULT as a function of the table and the positions. -/
def refOut (x : FVec F S4x92160 .f32) (idx : FVec F S256x256x180 .f32) : FVec F S1x4x256x256x180 .f32 :=
  shapeCast S1x4x256x256x180 (refBody x idx) shapeCasts_S1x4x11796480_S1x4x256x256x180

end Cert.ReferenceIdeal.RefRun

end
-- ==== Proof.RefRun.lean ====
/-
  The reference program's run, read back by hand.

  The reference's @main calls three outlined functions: the scalar-to-array where of the top-edge clamp, and the
  take along the last axis twice, each of which calls a where of its own for the wrap of negative words. With the
  callees' bodies substituted at their call sites @main is a straight line of 73 StableHLO operations, listed here
  in six stretches: what precedes the lookups (16); for the lower and then the upper lookup, the index table with
  its range mask (18) and the gather with the fill (5); the blend (11). Every weakly fair execution of the line
  terminates, and the result buffer then holds `refOut` of the two argument arrays, for any float values. What
  each stretch leaves in the buffers a later one reads is stated from ARBITRARY contents, so the readings compose
  by rewriting and the whole line is never unfolded at once.
-/
import proofs.«421777_j43198781063627_3_alg».proof.Proof.RefDefs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- Before the lookups: the table given a unit axis; floor, ceil and fractional part of the positions; the ceil
    compared with 92160.0 and replaced by the integer 92159 (the where's three operations: the integer converted,
    broadcast, the select); the two conversions to words and the three flattenings. -/
abbrev opsPre : List (HloOp τ sig (Elt F)) :=
  [
    reshape main_arg0 main_v0 rfl shapeCasts_S4x92160_S1x4x92160,
    unary main_arg1 main_v1 (Host.floor : (⟨S256x256x180, .f32⟩ : BufTy).Contents (Elt F) → (⟨S256x256x180, .f32⟩ : BufTy).Contents (Elt F)),
    unary main_arg1 main_v2 (Host.ceil : (⟨S256x256x180, .f32⟩ : BufTy).Contents (Elt F) → (⟨S256x256x180, .f32⟩ : BufTy).Contents (Elt F)),
    binary main_arg1 main_v1 main_v3 (subf : (⟨S256x256x180, .f32⟩ : BufTy).Contents (Elt F) → (⟨S256x256x180, .f32⟩ : BufTy).Contents (Elt F) → (⟨S256x256x180, .f32⟩ : BufTy).Contents (Elt F)),
    nullary main_cst (constant S_ .f32 0x47B40000#32),
    unary main_cst main_v4 (broadcastInDim S256x256x180 ![] bcast_S_S256x256x180 : (⟨S_, .f32⟩ : BufTy).Contents (Elt F) → (⟨S256x256x180, .f32⟩ : BufTy).Contents (Elt F)),
    binary main_v2 main_v4 main_v5 (cmpf .oeq : (⟨S256x256x180, .f32⟩ : BufTy).Contents (Elt F) → (⟨S256x256x180, .f32⟩ : BufTy).Contents (Elt F) → (⟨S256x256x180, .i1⟩ : BufTy).Contents (Elt F)),
    nullary main_c (constantI S_ 32 92159#32),
    TRef.unary (.of main_c : TRef sig ⟨S_, .i32⟩) main_call0.v0 (sitofp .f32),
    TRef.unary main_call0.v0 main_call0.v1 (broadcastInDim S256x256x180 ![] bcast_S_S256x256x180),
    TRef.ternary (.of main_v5 : TRef sig ⟨S256x256x180, .i1⟩) main_call0.v1 (.of main_v2 : TRef sig ⟨S256x256x180, .f32⟩) main_call0.v2 select,
    unary main_v1 main_v7 (fptosi 32 : (⟨S256x256x180, .f32⟩ : BufTy).Contents (Elt F) → (⟨S256x256x180, .i32⟩ : BufTy).Contents (Elt F)),
    reshape main_v7 main_v8 rfl shapeCasts_S256x256x180_S11796480,
    unary main_v6 main_v9 (fptosi 32 : (⟨S256x256x180, .f32⟩ : BufTy).Contents (Elt F) → (⟨S256x256x180, .i32⟩ : BufTy).Contents (Elt F)),
    reshape main_v9 main_v10 rfl shapeCasts_S256x256x180_S11796480,
    reshape main_v3 main_v11 rfl shapeCasts_S256x256x180_S11796480 ]

/-- The lower lookup, first part: the wrap of the negative words (the select is the take's own where), the
    one-column index table, the two range comparisons, their `and`, its reduction over the unit axis. -/
abbrev opsT1AB : List (HloOp τ sig (Elt F)) :=
  [
    TRef.nullary main_call1.c (constantI S_ 32 0#32),
    TRef.unary main_call1.c main_call1.v0 (broadcastInDim S11796480 ![] bcast_S_S11796480),
    TRef.binary (.of main_v8 : TRef sig ⟨S11796480, .i32⟩) main_call1.v0 main_call1.v1 (cmpi .slt),
    TRef.nullary main_call1.c_0 (constantI S_ 32 92160#32),
    TRef.unary main_call1.c_0 main_call1.v2 (broadcastInDim S11796480 ![] bcast_S_S11796480),
    TRef.binary (.of main_v8 : TRef sig ⟨S11796480, .i32⟩) main_call1.v2 main_call1.v3 addi,
    TRef.ternary main_call1.v1 main_call1.v3 (.of main_v8 : TRef sig ⟨S11796480, .i32⟩) main_call1.call0.v0 select,
    TRef.unary main_call1.call0.v0 main_call1.v5 (broadcastInDim S11796480x1 ![0] bcast_S11796480_S11796480x1_0),
    TRef.nullary main_call1.c_1 (constantI S1 32 92159#32),
    TRef.nullary main_call1.c_2 (constantI S_ 32 0#32),
    TRef.unary main_call1.c_2 main_call1.v6 (broadcastInDim S11796480x1 ![] bcast_S_S11796480x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S11796480x1 ![0, 1] bcast_S1x1_S11796480x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S11796480x1_S11796480_d1 h_S_) ]

/-- The lower lookup, second part: the gather, the mask spread over the rows, the fill word, the select. -/
abbrev opsT1C : List (HloOp τ sig (Elt F)) :=
  [
    TRef.binary (.of main_v0 : TRef sig ⟨S1x4x92160, .f32⟩) main_call1.v5 main_call1.v13 (fun x i => Host.gather gather_S1x4x92160_S11796480x1_S1x4x11796480_01_2_n_n_2_1_141 x i),
    TRef.unary main_call1.v12 main_call1.v14 (broadcastInDim S1x4x11796480 ![2] bcast_S11796480_S1x4x11796480_2),
    TRef.nullary main_call1.cst (constant S_ .f32 0x7FC00000#32),
    TRef.unary main_call1.cst main_call1.v15 (broadcastInDim S1x4x11796480 ![] bcast_S_S1x4x11796480),
    TRef.ternary main_call1.v14 main_call1.v13 main_call1.v15 main_call1.v16 select ]

/-- The upper lookup, first part: the same 18 operations over the second call's buffers. -/
abbrev opsT2AB : List (HloOp τ sig (Elt F)) :=
  [
    TRef.nullary main_call2.c (constantI S_ 32 0#32),
    TRef.unary main_call2.c main_call2.v0 (broadcastInDim S11796480 ![] bcast_S_S11796480),
    TRef.binary (.of main_v10 : TRef sig ⟨S11796480, .i32⟩) main_call2.v0 main_call2.v1 (cmpi .slt),
    TRef.nullary main_call2.c_0 (constantI S_ 32 92160#32),
    TRef.unary main_call2.c_0 main_call2.v2 (broadcastInDim S11796480 ![] bcast_S_S11796480),
    TRef.binary (.of main_v10 : TRef sig ⟨S11796480, .i32⟩) main_call2.v2 main_call2.v3 addi,
    TRef.ternary main_call2.v1 main_call2.v3 (.of main_v10 : TRef sig ⟨S11796480, .i32⟩) main_call2.call0.v0 select,
    TRef.unary main_call2.call0.v0 main_call2.v5 (broadcastInDim S11796480x1 ![0] bcast_S11796480_S11796480x1_0),
    TRef.nullary main_call2.c_1 (constantI S1 32 92159#32),
    TRef.nullary main_call2.c_2 (constantI S_ 32 0#32),
    TRef.unary main_call2.c_2 main_call2.v6 (broadcastInDim S11796480x1 ![] bcast_S_S11796480x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S11796480x1 ![0, 1] bcast_S1x1_S11796480x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S11796480x1_S11796480_d1 h_S_) ]

/-- The upper lookup, second part. -/
abbrev opsT2C : List (HloOp τ sig (Elt F)) :=
  [
    TRef.binary (.of main_v0 : TRef sig ⟨S1x4x92160, .f32⟩) main_call2.v5 main_call2.v13 (fun x i => Host.gather gather_S1x4x92160_S11796480x1_S1x4x11796480_01_2_n_n_2_1_141 x i),
    TRef.unary main_call2.v12 main_call2.v14 (broadcastInDim S1x4x11796480 ![2] bcast_S11796480_S1x4x11796480_2),
    TRef.nullary main_call2.cst (constant S_ .f32 0x7FC00000#32),
    TRef.unary main_call2.cst main_call2.v15 (broadcastInDim S1x4x11796480 ![] bcast_S_S1x4x11796480),
    TRef.ternary main_call2.v14 main_call2.v13 main_call2.v15 main_call2.v16 select ]

/-- The blend: one minus the fractional part, both weights spread over the rows, the two products, their sum,
    the last reshape. -/
abbrev opsPost : List (HloOp τ sig (Elt F)) :=
  [
    nullary main_cst_0 (constant S_ .f32 0x3F800000#32),
    unary main_cst_0 main_v14 (broadcastInDim S11796480 ![] bcast_S_S11796480 : (⟨S_, .f32⟩ : BufTy).Contents (Elt F) → (⟨S11796480, .f32⟩ : BufTy).Contents (Elt F)),
    binary main_v14 main_v11 main_v15 (subf : (⟨S11796480, .f32⟩ : BufTy).Contents (Elt F) → (⟨S11796480, .f32⟩ : BufTy).Contents (Elt F) → (⟨S11796480, .f32⟩ : BufTy).Contents (Elt F)),
    unary main_v15 main_v16 (broadcastInDim S1x1x11796480 ![2] bcast_S11796480_S1x1x11796480_2 : (⟨S11796480, .f32⟩ : BufTy).Contents (Elt F) → (⟨S1x1x11796480, .f32⟩ : BufTy).Contents (Elt F)),
    unary main_v16 main_v17 (broadcastInDim S1x4x11796480 ![0, 1, 2] bcast_S1x1x11796480_S1x4x11796480_0_1_2 : (⟨S1x1x11796480, .f32⟩ : BufTy).Contents (Elt F) → (⟨S1x4x11796480, .f32⟩ : BufTy).Contents (Elt F)),
    binary main_v12 main_v17 main_v18 (mulf : (⟨S1x4x11796480, .f32⟩ : BufTy).Contents (Elt F) → (⟨S1x4x11796480, .f32⟩ : BufTy).Contents (Elt F) → (⟨S1x4x11796480, .f32⟩ : BufTy).Contents (Elt F)),
    unary main_v11 main_v19 (broadcastInDim S1x1x11796480 ![2] bcast_S11796480_S1x1x11796480_2 : (⟨S11796480, .f32⟩ : BufTy).Contents (Elt F) → (⟨S1x1x11796480, .f32⟩ : BufTy).Contents (Elt F)),
    unary main_v19 main_v20 (broadcastInDim S1x4x11796480 ![0, 1, 2] bcast_S1x1x11796480_S1x4x11796480_0_1_2 : (⟨S1x1x11796480, .f32⟩ : BufTy).Contents (Elt F) → (⟨S1x4x11796480, .f32⟩ : BufTy).Contents (Elt F)),
    binary main_v13 main_v20 main_v21 (mulf : (⟨S1x4x11796480, .f32⟩ : BufTy).Contents (Elt F) → (⟨S1x4x11796480, .f32⟩ : BufTy).Contents (Elt F) → (⟨S1x4x11796480, .f32⟩ : BufTy).Contents (Elt F)),
    binary main_v18 main_v21 main_v22 (addf : (⟨S1x4x11796480, .f32⟩ : BufTy).Contents (Elt F) → (⟨S1x4x11796480, .f32⟩ : BufTy).Contents (Elt F) → (⟨S1x4x11796480, .f32⟩ : BufTy).Contents (Elt F)),
    reshape main_v22 main_v23 rfl shapeCasts_S1x4x11796480_S1x4x256x256x180 ]

/-- @main's 73 operations in order. -/
abbrev ops : List (HloOp τ sig (Elt F)) := opsPre ++ (opsT1AB ++ (opsT1C ++ (opsT2AB ++ (opsT2C ++ opsPost))))

/-- @main is that straight line: the callees' bodies substituted, the sequencing reassociated, by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and none allocates -/

theorem opsPre_sub : (opsPre : List (HloOp τ sig (Elt F))).Forall fun op => op.bufs ⊆ tcRefs τ sig :=
  ⟨reshape_bufs_sub .., unary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    reshape_bufs_sub .., unary_bufs_sub .., reshape_bufs_sub .., reshape_bufs_sub ..⟩
theorem opsT1AB_sub : (opsT1AB : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..⟩
theorem opsT1C_sub : (opsT1C : List (HloOp τ sig (Elt F))).Forall fun op => op.bufs ⊆ tcRefs τ sig :=
  ⟨binary_bufs_sub .., unary_bufs_sub .., nullary_bufs_sub .., unary_bufs_sub .., ternary_bufs_sub ..⟩
theorem opsT2AB_sub : (opsT2AB : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..⟩
theorem opsT2C_sub : (opsT2C : List (HloOp τ sig (Elt F))).Forall fun op => op.bufs ⊆ tcRefs τ sig :=
  ⟨binary_bufs_sub .., unary_bufs_sub .., nullary_bufs_sub .., unary_bufs_sub .., ternary_bufs_sub ..⟩
theorem opsPost_sub : (opsPost : List (HloOp τ sig (Elt F))).Forall fun op => op.bufs ⊆ tcRefs τ sig :=
  ⟨nullary_bufs_sub .., unary_bufs_sub .., binary_bufs_sub .., unary_bufs_sub .., unary_bufs_sub .., binary_bufs_sub ..,
    unary_bufs_sub .., unary_bufs_sub .., binary_bufs_sub .., binary_bufs_sub .., reshape_bufs_sub ..⟩

theorem ops_sub : (ops : List (HloOp τ sig (Elt F))).Forall fun op => op.bufs ⊆ tcRefs τ sig :=
  List.forall_append.mpr ⟨opsPre_sub, List.forall_append.mpr ⟨opsT1AB_sub, List.forall_append.mpr ⟨opsT1C_sub,
    List.forall_append.mpr ⟨opsT2AB_sub, List.forall_append.mpr ⟨opsT2C_sub, opsPost_sub⟩⟩⟩⟩⟩

theorem opsPre_fresh : ∀ op ∈ (opsPre : List (HloOp τ sig (Elt F))), op.fresh = ∅ := by
  intro _ h; (repeat (cases h with | head => rfl | tail _ h => ?_)); exact nomatch h
theorem opsT1AB_fresh : ∀ op ∈ (opsT1AB : List (HloOp τ sig (Elt F))), op.fresh = ∅ := by
  intro _ h; (repeat (cases h with | head => rfl | tail _ h => ?_)); exact nomatch h
theorem opsT1C_fresh : ∀ op ∈ (opsT1C : List (HloOp τ sig (Elt F))), op.fresh = ∅ := by
  intro _ h; (repeat (cases h with | head => rfl | tail _ h => ?_)); exact nomatch h
theorem opsT2AB_fresh : ∀ op ∈ (opsT2AB : List (HloOp τ sig (Elt F))), op.fresh = ∅ := by
  intro _ h; (repeat (cases h with | head => rfl | tail _ h => ?_)); exact nomatch h
theorem opsT2C_fresh : ∀ op ∈ (opsT2C : List (HloOp τ sig (Elt F))), op.fresh = ∅ := by
  intro _ h; (repeat (cases h with | head => rfl | tail _ h => ?_)); exact nomatch h
theorem opsPost_fresh : ∀ op ∈ (opsPost : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  rcases List.mem_append.mp h with h | h
  · exact opsPre_fresh op h
  rcases List.mem_append.mp h with h | h
  · exact opsT1AB_fresh op h
  rcases List.mem_append.mp h with h | h
  · exact opsT1C_fresh op h
  rcases List.mem_append.mp h with h | h
  · exact opsT2AB_fresh op h
  rcases List.mem_append.mp h with h | h
  · exact opsT2C_fresh op h
  · exact opsPost_fresh op h

/-! ## What each stretch leaves, from arbitrary contents -/

/-- Two stretches run one after the other: the second from what the first leaves. -/
theorem after_concat : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_concat l₁ l₂]

section Stretches
variable (V : Valuation τ sig (Elt F))

/-- The first stretch leaves the table with its unit axis, -/
theorem pre_v0 : after opsPre V (main_v0 : DevRef τ sig)
    = shapeCast S1x4x92160 (V (main_arg0 : DevRef τ sig)) shapeCasts_S4x92160_S1x4x92160 := by
  after_results_simp
  rfl
/-- the lower neighbours' words, -/
theorem pre_v8 : after opsPre V (main_v8 : DevRef τ sig)
    = loIdx (V (main_arg1 : DevRef τ sig)) := by
  after_results_simp
  rfl
/-- the upper neighbours' words, -/
theorem pre_v10 : after opsPre V (main_v10 : DevRef τ sig)
    = hiIdx (V (main_arg1 : DevRef τ sig)) := by
  after_results_simp
  rfl
/-- and the fractional parts. -/
theorem pre_v11 : after opsPre V (main_v11 : DevRef τ sig)
    = fracR (V (main_arg1 : DevRef τ sig)) := by
  after_results_simp
  rfl

/-- The lower lookup's first part leaves the index table of the words it finds, -/
theorem t1_v5 : after opsT1AB V (main_call1_v5 : DevRef τ sig)
    = colIdx (V (main_v8 : DevRef τ sig)) := by
  after_results_simp
  rfl
attribute [local irreducible] Host.reduce Host.gather in
/-- their range mask, -/
theorem t1_v12 : after opsT1AB V (main_call1_v12 : DevRef τ sig)
    = inRange (V (main_v8 : DevRef τ sig)) := by
  after_results_simp
  rfl
/-- and what it does not write. -/
theorem t1_keep_v0 : after opsT1AB V (main_v0 : DevRef τ sig) = V (main_v0 : DevRef τ sig) := by
  after_results_simp
theorem t1_keep_v10 : after opsT1AB V (main_v10 : DevRef τ sig) = V (main_v10 : DevRef τ sig) := by
  after_results_simp
theorem t1_keep_v11 : after opsT1AB V (main_v11 : DevRef τ sig) = V (main_v11 : DevRef τ sig) := by
  after_results_simp

attribute [local irreducible] Host.reduce Host.gather in
/-- The lower lookup's second part leaves the gather of the table it finds at the index table it finds, filled by the mask it finds, -/
theorem c1_v12 : after opsT1C V (main_v12 : DevRef τ sig)
    = fillOut (V (main_call1_v12 : DevRef τ sig)) (Host.gather gather_S1x4x92160_S11796480x1_S1x4x11796480_01_2_n_n_2_1_141 (V (main_v0 : DevRef τ sig)) (V (main_call1_v5 : DevRef τ sig))) := by
  after_results_simp
  rfl
/-- and what it does not write. -/
theorem c1_keep_v0 : after opsT1C V (main_v0 : DevRef τ sig) = V (main_v0 : DevRef τ sig) := by
  after_results_simp
theorem c1_keep_v10 : after opsT1C V (main_v10 : DevRef τ sig) = V (main_v10 : DevRef τ sig) := by
  after_results_simp
theorem c1_keep_v11 : after opsT1C V (main_v11 : DevRef τ sig) = V (main_v11 : DevRef τ sig) := by
  after_results_simp

/-- The upper lookup's first part: the index table, -/
theorem t2_v5 : after opsT2AB V (main_call2_v5 : DevRef τ sig)
    = colIdx (V (main_v10 : DevRef τ sig)) := by
  after_results_simp
  rfl
attribute [local irreducible] Host.reduce Host.gather in
/-- the range mask, -/
theorem t2_v12 : after opsT2AB V (main_call2_v12 : DevRef τ sig)
    = inRange (V (main_v10 : DevRef τ sig)) := by
  after_results_simp
  rfl
/-- and what it does not write. -/
theorem t2_keep_v0 : after opsT2AB V (main_v0 : DevRef τ sig) = V (main_v0 : DevRef τ sig) := by
  after_results_simp
theorem t2_keep_v11 : after opsT2AB V (main_v11 : DevRef τ sig) = V (main_v11 : DevRef τ sig) := by
  after_results_simp
theorem t2_keep_v12 : after opsT2AB V (main_v12 : DevRef τ sig) = V (main_v12 : DevRef τ sig) := by
  after_results_simp

attribute [local irreducible] Host.reduce Host.gather in
/-- The upper lookup's second part, -/
theorem c2_v13 : after opsT2C V (main_v13 : DevRef τ sig)
    = fillOut (V (main_call2_v12 : DevRef τ sig)) (Host.gather gather_S1x4x92160_S11796480x1_S1x4x11796480_01_2_n_n_2_1_141 (V (main_v0 : DevRef τ sig)) (V (main_call2_v5 : DevRef τ sig))) := by
  after_results_simp
  rfl
/-- and what it does not write. -/
theorem c2_keep_v11 : after opsT2C V (main_v11 : DevRef τ sig) = V (main_v11 : DevRef τ sig) := by
  after_results_simp
theorem c2_keep_v12 : after opsT2C V (main_v12 : DevRef τ sig) = V (main_v12 : DevRef τ sig) := by
  after_results_simp

/-- The last stretch leaves the blend of the two lookups by the fractional parts it finds, reshaped. -/
theorem post_v23 : after opsPost V (main_v23 : DevRef τ sig)
    = shapeCast S1x4x256x256x180
        (lerpR (V (main_v12 : DevRef τ sig)) (V (main_v13 : DevRef τ sig)) (V (main_v11 : DevRef τ sig)))
        shapeCasts_S1x4x11796480_S1x4x256x256x180 := by
  after_results_simp
  rfl

/-! ## The whole line -/

/-- What the 73 operations leave in the result buffer, from any contents: `refOut` of the table and the positions
    found there. The six stretches' readings, composed from the last to the first. -/
theorem out_eq : after ops V (main_v23 : DevRef τ sig)
    = refOut (V (main_arg0 : DevRef τ sig)) (V (main_arg1 : DevRef τ sig)) := by
  rw [after_concat, after_concat, after_concat, after_concat, after_concat, post_v23,
    c2_v13, c2_keep_v12, c2_keep_v11,
    t2_v12, t2_v5, t2_keep_v0, t2_keep_v12, t2_keep_v11,
    c1_v12, c1_keep_v0, c1_keep_v10, c1_keep_v11,
    t1_v12, t1_v5, t1_keep_v0, t1_keep_v10, t1_keep_v11,
    pre_v0, pre_v8, pre_v10, pre_v11]
  rfl

/-- No operation writes the table's buffer. -/
theorem arg0_eq : after ops V (main_arg0 : DevRef τ sig) = V (main_arg0 : DevRef τ sig) := by
  unfold ops opsPre opsT1AB opsT1C opsT2AB opsT2C opsPost
  simp only [List.cons_append, List.nil_append]
  after_results_simp

/-- No operation writes the positions' buffer. -/
theorem arg1_eq : after ops V (main_arg1 : DevRef τ sig) = V (main_arg1 : DevRef τ sig) := by
  unfold ops opsPre opsT1AB opsT1C opsT2AB opsT2C opsPost
  simp only [List.cons_append, List.nil_append]
  after_results_simp

end Stretches

/-! ## The run -/

/-- On every device, for any float values, from any memory with zero counters: every weakly fair execution of the
    reference's @main terminates with the result buffer at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v23).trans (out_eq _), (h c main_arg0).trans (arg0_eq _),
      (h c main_arg1).trans (arg1_eq _)⟩)
    (run_seq scopedRefs_eq scopedSems_eq defs main (fun _ => ops) main_eq (fun _ => ops_sub) m ρ (fun _ => ops_fresh))

end Cert.ReferenceIdeal.RefRun

end
-- ==== Proof.LibGatherLast.lean ====
/-
  A gather that picks columns along the LAST axis of a three-axis array, read at an index.

  The operand is a [b, r, n] array, the start indices a [k, 1] table of column numbers. The result's first two
  axes are the operand's first two, whole; the operand's last axis is collapsed and indexed by the table. So
  the result at (u, p, q) is the operand at (u, p, the q-th table entry), the entry read as a signed integer and
  clamped into the columns [0, n - 1], as a gather clamps every start index. Stated for any extents.
-/
import Idealize.ShloMosaic.PureOps.Ideal
import Idealize.ShloMosaic.Lib.ValueIdx

noncomputable section

namespace Cert.LibGatherLast

open Idealize.ShloMosaic Idealize.ShloMosaic.ValueIdx

variable {α : Type}

/-- The dimension numbers of that gather: the result's axes 0 and 1 are the operand's, the operand's axis 2 is
    collapsed and indexed by the table, whose axis 1 holds the one-component index. -/
abbrev lastDims (b r n k : Nat)
    (wf : GatherDims.WF ⟨3, ![b, r, n]⟩ ⟨2, ![k, 1]⟩ ⟨3, ![b, r, k]⟩ [0, 1] [2] [] [2] [] 1 ![b, r, 1]) :
    GatherDims ⟨3, ![b, r, n]⟩ ⟨2, ![k, 1]⟩ ⟨3, ![b, r, k]⟩ where
  offsetDims := [0, 1]
  collapsedSliceDims := [2]
  operandBatchingDims := []
  startIndicesBatchingDims := []
  startIndexMap := [2]
  indexVectorDim := 1
  sliceSizes := ![b, r, 1]
  wf := wf

/-- The gather read at (u, p, q): the operand at (u, p) and the column the q-th table entry names, clamped into
    [0, n - 1]. -/
theorem gather_last_apply {b r n k w : Nat} (hn : 0 < n)
    (wf : GatherDims.WF ⟨3, ![b, r, n]⟩ ⟨2, ![k, 1]⟩ ⟨3, ![b, r, k]⟩ [0, 1] [2] [] [2] [] 1 ![b, r, 1])
    (x : (⟨3, ![b, r, n]⟩ : Shape).Idx → α) (idx : IVec ⟨2, ![k, 1]⟩ w) (u : Fin b) (p : Fin r) (q : Fin k) :
    Host.gather (lastDims b r n k wf) x idx (ix3 u p q)
      = x (ix3 u p ⟨min (idx (ix2 q (0 : Fin 1))).toInt.toNat (n - 1), by omega⟩) := by
  unfold Host.gather
  congr 1
  funext a
  refine Fin.ext ?_
  match a with
  | ⟨0, _⟩ =>
    show (lastDims b r n k wf).start (ix3 u p q) idx 0 + (lastDims b r n k wf).batchCoord (ix3 u p q) 0
        + (lastDims b r n k wf).offCoord (ix3 u p q) 0 = u.val
    rw [GatherDims.batchCoord_eq_zero _ _ _ List.not_mem_nil]
    unfold GatherDims.start
    rw [dif_neg (show (0 : Fin 3) ∉ (lastDims b r n k wf).startIndexMap from
      show (0 : Fin 3) ∉ ([2] : List (Fin 3)) from by decide)]
    unfold GatherDims.offCoord
    rw [dif_pos (show (0 : Fin 3) ∈ (lastDims b r n k wf).sKept from (GatherDims.mem_sKept _ _).mpr
      ⟨show (0 : Fin 3) ∉ ([2] : List (Fin 3)) from by decide, List.not_mem_nil⟩)]
    simp only [Nat.zero_add, Nat.add_zero]
    rfl
  | ⟨1, _⟩ =>
    show (lastDims b r n k wf).start (ix3 u p q) idx 1 + (lastDims b r n k wf).batchCoord (ix3 u p q) 1
        + (lastDims b r n k wf).offCoord (ix3 u p q) 1 = p.val
    rw [GatherDims.batchCoord_eq_zero _ _ _ List.not_mem_nil]
    unfold GatherDims.start
    rw [dif_neg (show (1 : Fin 3) ∉ (lastDims b r n k wf).startIndexMap from
      show (1 : Fin 3) ∉ ([2] : List (Fin 3)) from by decide)]
    unfold GatherDims.offCoord
    rw [dif_pos (show (1 : Fin 3) ∈ (lastDims b r n k wf).sKept from (GatherDims.mem_sKept _ _).mpr
      ⟨show (1 : Fin 3) ∉ ([2] : List (Fin 3)) from by decide, List.not_mem_nil⟩)]
    simp only [Nat.zero_add, Nat.add_zero]
    rfl
  | ⟨2, _⟩ =>
    show (lastDims b r n k wf).start (ix3 u p q) idx 2 + (lastDims b r n k wf).batchCoord (ix3 u p q) 2
        + (lastDims b r n k wf).offCoord (ix3 u p q) 2 = min (idx (ix2 q (0 : Fin 1))).toInt.toNat (n - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (lastDims b r n k wf).startIndexMap from List.mem_singleton.mpr rfl)]
    have hsi : (lastDims b r n k wf).siIdx (ix3 u p q) ⟨List.idxOf (2 : Fin 3) (lastDims b r n k wf).startIndexMap,
        List.idxOf_lt_length_iff.2 (List.mem_singleton.mpr rfl)⟩ = ix2 q (0 : Fin 1) := by
      funext e; refine Fin.ext ?_
      match e with
      | ⟨0, _⟩ => rfl
      | ⟨1, _⟩ => rfl
    rw [hsi]
    rfl

end Cert.LibGatherLast

end
-- ==== Proof.RefValue.lean ====
/-
  At the extended reals the reference's result is the shared specification.

  Read at row c and position q, the reference's composed operations give exactly the specification's terms: the
  wrap of a negative word, the one-column index table, the range mask (an `and` reduced over a unit axis) and
  the gather that picks a column along the last axis are each read at the index; the floor, the clamped ceil and
  the fractional part are pointwise, so they commute with the flattening of the positions; a weight per position
  broadcast over the rows reads that position's weight; the table with a leading unit axis reads the table. One
  word identity is needed: the integer 92159 converted to a float is the number the pattern 0x47B3FF80 denotes.
  The last reshape, from [1, 4, 11796480], and the specification's, from [4, 11796480], read the same row-major
  position.
-/
import proofs.«421777_j43198781063627_3_alg».proof.Proof.RefDefs
import proofs.«421777_j43198781063627_3_alg».proof.Proof.LibGatherLast
import proofs.«421777_j43198781063627_3_alg».proof.Proof.Spec
import proofs.«421777_j43198781063627_3_alg».proof.Proof.LibTake
import Idealize.ShloMosaic.Lib.ValueLayout
import Idealize.ShloMosaic.Lib.Pipeline.Value
import Idealize.ShloMosaic.Lib.IdealHost

noncomputable section

namespace Cert.ReferenceIdeal.RefValue

open Cert.ReferenceIdeal Cert.ReferenceIdeal.Gen Cert.ReferenceIdeal.RefRun Idealize.ShloMosaic Idealize.ShloMosaic.ValueIdx

/-- The flattened positions. -/
abbrev flat (idx : FVec Ideal S256x256x180 .f32) : FVec Ideal S11796480 .f32 :=
  shapeCast S11796480 idx shapeCasts_S256x256x180_S11796480

/-! ## One word -/

/-- The integer 92159 as a float is the number the single-precision pattern 0x47B3FF80 denotes:
    (2^23 + 0x33FF80) * 2^(143 - 127 - 23) = 11796352 / 128 = 92159. -/
theorem sitofp_92159 : FloatOps.sitofp (F := Ideal) .f32 (92159#32) = Ideal.ofBits .f32 0x47B3FF80#32 := by
  show (((92159#32 : BitVec 32).toInt : ℝ) : EReal) = _
  rw [show (92159#32 : BitVec 32).toInt = 92159 by decide]
  simp [Ideal.ofBits, Ideal.ieee, -EReal.coe_mul]
  norm_num

/-! ## The take chain at an index -/

/-- The one-column index table at (q, 0): the wrapped word of position q. -/
theorem colIdx_apply (j : IVec S11796480 32) (q : Fin 11796480) :
    colIdx j (ix2 q (0 : Fin 1)) = Spec.wrapW (j (ix1 q)) :=
  (LibTake.column_apply bcast_S11796480_S11796480x1_0 (wrapIdx j) q).trans
    (LibTake.wrap_apply 92160#32 bcast_S_S11796480 j (ix1 q))

/-- The range mask at q: the specification's test of the wrapped word. -/
theorem inRange_apply (j : IVec S11796480 32) (q : Fin 11796480) :
    inRange j (ix1 q) = Spec.okW (Spec.wrapW (j (ix1 q))) :=
  (LibTake.mask_apply 0#32 92159#32 bcast_S_S11796480x1 bcast_S1_S1x1_1 bcast_S1x1_S11796480x1_0_1
    reducesTo_S11796480x1_S11796480_d1 h_S_ (colIdx j) q).trans (by rw [colIdx_apply]; rfl)

/-- The gather at (u, c, q): the operand at (u, c) and the column the wrapped word names, clamped. -/
theorem gather_apply (x3 : FVec Ideal S1x4x92160 .f32) (j : IVec S11796480 32) (u : Fin 1) (c : Fin 4)
    (q : Fin 11796480) :
    Host.gather gather_S1x4x92160_S11796480x1_S1x4x11796480_01_2_n_n_2_1_141 x3 (colIdx j) (ix3 u c q)
      = x3 (ix3 u c (Spec.colOf (Spec.wrapW (j (ix1 q))))) := by
  refine (LibGatherLast.gather_last_apply (by decide) gather_S1x4x92160_S11796480x1_S1x4x11796480_01_2_n_n_2_1_141_wf x3 (colIdx j) u c q).trans ?_
  refine congrArg (fun z => x3 (ix3 u c z)) (Fin.ext ?_)
  show min (colIdx j (ix2 q (0 : Fin 1))).toInt.toNat (92160 - 1) = min (Spec.wrapW (j (ix1 q))).toInt.toNat (92160 - 1)
  rw [colIdx_apply]

/-- ONE LOOKUP at (u, c, q): the fill word where the wrapped word is out of range, else the operand at the
    column it names. -/
theorem takeR_apply (x3 : FVec Ideal S1x4x92160 .f32) (j : IVec S11796480 32) (u : Fin 1) (c : Fin 4)
    (q : Fin 11796480) :
    takeR x3 j (ix3 u c q)
      = Scalar.select (Spec.okW (Spec.wrapW (j (ix1 q)))) (x3 (ix3 u c (Spec.colOf (Spec.wrapW (j (ix1 q))))))
          Spec.fill := by
  show Scalar.select (broadcastInDim S1x4x11796480 ![2] bcast_S11796480_S1x4x11796480_2 (inRange j) (ix3 u c q))
      (Host.gather gather_S1x4x92160_S11796480x1_S1x4x11796480_01_2_n_n_2_1_141 x3 (colIdx j) (ix3 u c q))
      (broadcastInDim S1x4x11796480 ![] bcast_S_S1x4x11796480 (constant (F := Ideal) S_ .f32 0x7FC00000#32) (ix3 u c q)) = _
  rw [LibTake.rows3_apply bcast_S11796480_S1x4x11796480_2 (inRange j) u c q, inRange_apply, gather_apply]
  rfl

/-! ## The pointwise parts commute with the flattening -/

/-- The lower neighbour's word at a flat position. -/
theorem loIdx_apply (idx : FVec Ideal S256x256x180 .f32) (i : S11796480.Idx) :
    loIdx idx i = Spec.loW (flat idx i) := rfl

/-- The fractional part at a flat position. -/
theorem fracR_apply (idx : FVec Ideal S256x256x180 .f32) (i : S11796480.Idx) :
    fracR idx i = Spec.frac (flat idx i) := rfl

/-- The upper neighbour's word at a flat position: the replacement value is the same number. -/
theorem hiIdx_apply (idx : FVec Ideal S256x256x180 .f32) (i : S11796480.Idx) :
    hiIdx idx i = Spec.hiW (flat idx i) := by
  show FloatOps.fptosi 32 (Scalar.select
      (FloatOps.cmpf .oeq (FloatOps.hostUnary .ceil (flat idx i)) (Ideal.ofBits .f32 0x47B40000#32))
      (FloatOps.sitofp (F := Ideal) .f32 (92159#32)) (FloatOps.hostUnary .ceil (flat idx i))) = _
  rw [sitofp_92159]
  rfl

/-! ## The blend at an index -/

/-- A weight per position spread over the rows reads, at (u, c, q), the weight of q. -/
theorem spread_apply (w : FVec Ideal S11796480 .f32) (u : Fin 1) (c : Fin 4) (q : Fin 11796480) :
    spread w (ix3 u c q) = w (ix1 q) := by
  unfold spread
  rw [broadcastInDim_apply _ bcast_S1x1x11796480_S1x4x11796480_0_1_2 _ (ix3 u c q) (ix3 (0 : Fin 1) (0 : Fin 1) q)
    (fun a => by
      match a with
      | ⟨0, _⟩ => rfl
      | ⟨1, _⟩ => rfl
      | ⟨2, _⟩ => rfl)]
  exact LibTake.rows3_apply bcast_S11796480_S1x1x11796480_2 w (0 : Fin 1) (0 : Fin 1) q

/-- The blend at (u, c, q). -/
theorem lerpR_apply (low high : FVec Ideal S1x4x11796480 .f32) (w : FVec Ideal S11796480 .f32) (u : Fin 1)
    (c : Fin 4) (q : Fin 11796480) :
    lerpR low high w (ix3 u c q)
      = low (ix3 u c q) * (Spec.one - w (ix1 q)) + high (ix3 u c q) * w (ix1 q) := by
  show low (ix3 u c q)
        * spread (subf (broadcastInDim S11796480 ![] bcast_S_S11796480 (constant (F := Ideal) S_ .f32 0x3F800000#32)) w)
            (ix3 u c q)
      + high (ix3 u c q) * spread w (ix3 u c q) = _
  rw [spread_apply, spread_apply]
  rfl

/-- THE REFERENCE BEFORE ITS LAST RESHAPE, at (u, c, q): the specification at row c and position q. -/
theorem refBody_apply (x : FVec Ideal S4x92160 .f32) (idx : FVec Ideal S256x256x180 .f32) (u : Fin 1) (c : Fin 4)
    (q : Fin 11796480) :
    refBody x idx (ix3 u c q) = Spec.blend x (flat idx) (ix2 c q) := by
  unfold refBody
  rw [lerpR_apply, takeR_apply, takeR_apply, shapeCast_ab_1ab_apply, shapeCast_ab_1ab_apply, loIdx_apply,
    hiIdx_apply, fracR_apply, Spec.blend_apply]
  rfl

/-! ## The last reshape -/

/-- The reference's result is the specification, reshaped. -/
theorem refOut_eq (x : FVec Ideal S4x92160 .f32) (idx : FVec Ideal S256x256x180 .f32)
    (hK : Cert.Spec.SK.ShapeCasts S1x4x256x256x180) :
    RefRun.refOut (F := Ideal) x idx
      = shapeCast S1x4x256x256x180
          (Cert.Spec.blend x (shapeCast S11796480 idx shapeCasts_S256x256x180_S11796480)) hK := by
  funext i
  obtain ⟨u, c, q, hk⟩ : ∃ (u : Fin 1) (c : Fin 4) (q : Fin 11796480),
      Shape.reshapeEquiv shapeCasts_S1x4x11796480_S1x4x256x256x180 i = ix3 u c q := ⟨_, _, _, eq_ix3 _⟩
  have hk2 : Shape.reshapeEquiv hK i = ix2 c q := Shape.reshapeEquiv_eq_of_rowMajor hK (by
    have h1 := Shape.rowMajor_reshapeEquiv shapeCasts_S1x4x11796480_S1x4x256x256x180 i
    rw [hk, Shape.rowMajor_val_three] at h1
    rw [Shape.rowMajor_val_two, ← h1]
    have hu : u.val = 0 := by omega
    show c.val * 11796480 + q.val = (u.val * 4 + c.val) * 11796480 + q.val
    rw [hu, Nat.zero_mul, Nat.zero_add])
  exact (congrArg (refBody x idx) hk).trans
    ((refBody_apply x idx u c q).trans (congrArg (Spec.blend x (flat idx)) hk2).symm)

end Cert.ReferenceIdeal.RefValue

end
-- ==== Proof.lean ====
/-
  The certificate: a table of 4 rows sampled at 11796480 fractional positions by linear interpolation between
  the two neighbouring columns, computed once by a pipelined kernel around a single table lookup and once by a
  plain array program with two lookups.

  Both programs compute, at row c and position q,  low * (1 - w) + high * w,  where w is the fractional part of
  the position, low is row c of the table looked up at the floor of the position and high at its ceil (92159
  where the ceil is 92160); a lookup wraps a negative column word once and yields the fill value for a word that
  is still out of range. The kernel looks both lists of words up in one call and cuts the result in two, the
  reference looks them up separately; the kernel interpolates block by block, the blocks tiling the array. Read
  at an index the two sides are the same term on the extended reals, so no algebraic law is used and the
  precondition is never opened. The frames of the two kernel programs are the generated ones; the reference's
  frame is its run with the result dropped.
-/
import proofs.«421777_j43198781063627_3_alg».proof.Defs
import proofs.«421777_j43198781063627_3_alg».proof.Proof.Gen.Kernel
import proofs.«421777_j43198781063627_3_alg».proof.Proof.Gen.Kernel.Skeleton
import proofs.«421777_j43198781063627_3_alg».proof.Proof.Gen.Kernel.Launch
import proofs.«421777_j43198781063627_3_alg».proof.Proof.Gen.Kernel.Points
import proofs.«421777_j43198781063627_3_alg».proof.Proof.Gen.Kernel.Frame
import proofs.«421777_j43198781063627_3_alg».proof.Proof.Gen.KernelIdeal
import proofs.«421777_j43198781063627_3_alg».proof.Proof.Gen.KernelIdeal.Skeleton
import proofs.«421777_j43198781063627_3_alg».proof.Proof.Gen.KernelIdeal.Launch
import proofs.«421777_j43198781063627_3_alg».proof.Proof.Gen.KernelIdeal.Points
import proofs.«421777_j43198781063627_3_alg».proof.Proof.Gen.KernelIdeal.Frame
import proofs.«421777_j43198781063627_3_alg».proof.Proof.Gen.ReferenceIdeal
import proofs.«421777_j43198781063627_3_alg».proof.Proof.Gen.Pre_finite_inputs
import proofs.«421777_j43198781063627_3_alg».proof.Proof.KRun
import proofs.«421777_j43198781063627_3_alg».proof.Proof.RefRun
import proofs.«421777_j43198781063627_3_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories that agree on the two arguments both programs end with the same result: the reshape of the
    interpolation of the two lookups. -/
theorem algebraic : Cert.algebraic_KernelIdeal_ReferenceIdeal := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.refOut_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
